-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_arg9 : FVec F S128x40 .f32) (main_v33 : IVec S_ 1) : IVec S_ 1 :=
  let main_v34 : FVec F S128x40 .f32 := Host.absf main_arg9
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_c_14 : IVec S_ 32 := constantI S_ 32 0#32
  let main_v39 : IVec S1600000 32 := broadcastInDim S1600000 ![] bcast_S_S1600000 main_c_14
  let main_v40 : IVec S1600000 1 := cmpi .sge main_arg1 main_v39
  let main_c_15 : IVec S_ 32 := constantI S_ 32 100000#32
  let main_v41 : IVec S1600000 32 := broadcastInDim S1600000 ![] bcast_S_S1600000 main_c_15
  let main_v42 : IVec S1600000 1 := cmpi .slt main_arg1 main_v41
  let main_v43 : IVec S1600000 1 := andi main_v40 main_v42
  let main_c_16 : IVec S_ 1 := constantI S_ 1 1#1
  let main_v44 : IVec S_ 1 := (fun x v => Host.reduce IntOp.andi x v reducesTo_S1600000_S_d0 h_S_) main_v43 main_c_16
  let main_v45 : IVec S_ 1 := andi main_v38 main_v44
  main_v45

def fn_part1 {F : FTy → Type} [FloatOps F] (main_arg1 : IVec S1600000 32) (main_arg6 : FVec F S40 .f32) (main_arg7 : FVec F S128x128 .f32) (main_arg8 : FVec F S128x128 .f32) (main_arg9 : FVec F S128x40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128x40 .f32) (main_arg6 : FVec F S40 .f32) (main_arg7 : FVec F S128x128 .f32) (main_arg8 : FVec F S128x128 .f32) (main_arg9 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x40 .f32 := Host.absf main_arg5
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg1 main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128 : Shape := ⟨1, ![128]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 121
  | .vmem => 51
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x128, .f32⟩
  | .hbm, ⟨8, _⟩ => ⟨S128x128, .f32⟩
  | .hbm, ⟨9, _⟩ => ⟨S128x40, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1, .i32⟩
  | .hbm, ⟨44, _⟩ => ⟨S_, .i32⟩
  | .hbm, ⟨45, _⟩ => ⟨S1600000x1, .i32⟩
  | .hbm, ⟨46, _⟩ => ⟨S1600000x1, .i1⟩
  | .hbm, ⟨47, _⟩ => ⟨S1x1, .i32⟩
  | .hbm, ⟨48, _⟩ => ⟨S1600000x1, .i32⟩
  | .hbm, ⟨49, _⟩ => ⟨S1600000x1, .i1⟩
  | .hbm, ⟨50, _⟩ => ⟨S1600000x1, .i1⟩
  | .hbm, ⟨51, _⟩ => ⟨S_, .i1⟩
  | .hbm, ⟨52, _⟩ => ⟨S1600000, .i1⟩
  | .hbm, ⟨53, _⟩ => ⟨S1600000x128, .f32⟩
  | .hbm, ⟨54, _⟩ => ⟨S1600000x128, .i1⟩
  | .hbm, ⟨55, _⟩ => ⟨S_, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1, .i32⟩
  | .hbm, ⟨73, _⟩ => ⟨S_, .i32⟩
  | .hbm, ⟨74, _⟩ => ⟨S1600000x1, .i32⟩
  | .hbm, ⟨75, _⟩ => ⟨S1600000x1, .i1⟩
  | .hbm, ⟨76, _⟩ => ⟨S1x1, .i32⟩
  | .hbm, ⟨77, _⟩ => ⟨S1600000x1, .i32⟩
  | .hbm, ⟨78, _⟩ => ⟨S1600000x1, .i1⟩
  | .hbm, ⟨79, _⟩ => ⟨S1600000x1, .i1⟩
  | .hbm, ⟨80, _⟩ => ⟨S_, .i1⟩
  | .hbm, ⟨81, _⟩ => ⟨S1600000, .i1⟩
  | .hbm, ⟨82, _⟩ => ⟨S1600000x128, .f32⟩
  | .hbm, ⟨83, _⟩ => ⟨S1600000x128, .i1⟩
  | .hbm, ⟨84, _⟩ => ⟨S_, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000x128, .f32⟩
  | .hbm, ⟨92, _⟩ => ⟨S100000x40, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1, .i32⟩
  | .hbm, ⟨102, _⟩ => ⟨S_, .i32⟩
  | .hbm, ⟨103, _⟩ => ⟨S1600000x1, .i32⟩
  | .hbm, ⟨104, _⟩ => ⟨S1600000x1, .i1⟩
  | .hbm, ⟨105, _⟩ => ⟨S1x1, .i32⟩
  | .hbm, ⟨106, _⟩ => ⟨S1600000x1, .i32⟩
  | .hbm, ⟨107, _⟩ => ⟨S1600000x1, .i1⟩
  | .hbm, ⟨108, _⟩ => ⟨S1600000x1, .i1⟩
  | .hbm, ⟨109, _⟩ => ⟨S_, .i1⟩
  | .hbm, ⟨110, _⟩ => ⟨S1600000, .i1⟩
  | .hbm, ⟨111, _⟩ => ⟨S1600000x40, .f32⟩
  | .hbm, ⟨112, _⟩ => ⟨S1600000x40, .i1⟩
  | .hbm, ⟨113, _⟩ => ⟨S_, .f32⟩
  | .hbm, ⟨114, _⟩ => ⟨S1600000x40, .f32⟩
  | .hbm, ⟨115, _⟩ => ⟨S1600000x40, .f32⟩
  | .hbm, ⟨116, _⟩ => ⟨S_, .f32⟩
  | .hbm, ⟨117, _⟩ => ⟨S100000x40, .f32⟩
  | .hbm, ⟨118, _⟩ => ⟨S1600000x1, .i32⟩
  | .hbm, ⟨119, _⟩ => ⟨S100000x40, .f32⟩
  | .hbm, ⟨120, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S128x40, .f32⟩
  | .local _ .vmem, ⟨39, _⟩ => ⟨S5000x40, .f32⟩
  | .local _ .vmem, ⟨40, _⟩ => ⟨S5000x40, .f32⟩
  | .local _ .vmem, ⟨41, _⟩ => ⟨S5000x128, .f32⟩
  | .local _ .vmem, ⟨42, _⟩ => ⟨S5000x128, .f32⟩
  | .local _ .vmem, ⟨43, _⟩ => ⟨S128x40, .f32⟩
  | .local _ .vmem, ⟨44, _⟩ => ⟨S5000x40, .f32⟩
  | .local _ .vmem, ⟨45, _⟩ => ⟨S5000x40, .f32⟩
  | .local _ .vmem, ⟨46, _⟩ => ⟨S5000x1, .f32⟩
  | .local _ .vmem, ⟨47, _⟩ => ⟨S5000x1, .f32⟩
  | .local _ .vmem, ⟨48, _⟩ => ⟨S40, .f32⟩
  | .local _ .vmem, ⟨49, _⟩ => ⟨S5000x40, .f32⟩
  | .local _ .vmem, ⟨50, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_call2_cst : Ref sig .tc := ⟨.hbm, 55, rfl⟩
abbrev main_call2_v15 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_cst : Ref sig .tc := ⟨.hbm, 84, rfl⟩
abbrev main_call3_v15 : Ref sig .tc := ⟨.hbm, 85, rfl⟩
abbrev main_v21 : Ref sig .tc := ⟨.hbm, 86, rfl⟩
abbrev main_cst_6 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_call4_c : Ref sig .tc := ⟨.hbm, 93, rfl⟩
abbrev main_call4_v0 : Ref sig .tc := ⟨.hbm, 94, rfl⟩
abbrev main_call4_v1 : Ref sig .tc := ⟨.hbm, 95, rfl⟩
abbrev main_call4_c_0 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_c_1 : Ref sig .tc := ⟨.hbm, 101, rfl⟩
abbrev main_call4_c_2 : Ref sig .tc := ⟨.hbm, 102, rfl⟩
abbrev main_call4_v6 : Ref sig .tc := ⟨.hbm, 103, rfl⟩
abbrev main_call4_v7 : Ref sig .tc := ⟨.hbm, 104, rfl⟩
abbrev main_call4_v8 : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_3 : Ref sig .tc := ⟨.hbm, 109, rfl⟩
abbrev main_call4_v12 : Ref sig .tc := ⟨.hbm, 110, rfl⟩
abbrev main_call4_v13 : Ref sig .tc := ⟨.hbm, 111, rfl⟩
abbrev main_call4_v14 : Ref sig .tc := ⟨.hbm, 112, rfl⟩
abbrev main_call4_cst : Ref sig .tc := ⟨.hbm, 113, rfl⟩
abbrev main_call4_v15 : Ref sig .tc := ⟨.hbm, 114, rfl⟩
abbrev main_v27 : Ref sig .tc := ⟨.hbm, 115, rfl⟩
abbrev main_cst_7 : Ref sig .tc := ⟨.hbm, 116, rfl⟩
abbrev main_v28 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg3_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem3_1 : DmaSem sig := 40
abbrev cc5_sem0_0 : DmaSem sig := 41
abbrev cc5_sem0_1 : DmaSem sig := 42
abbrev cc5_sem1_0 : DmaSem sig := 43
abbrev cc5_sem2_0 : DmaSem sig := 44
abbrev cc5_sem2_1 : DmaSem sig := 45
abbrev cc5_sem3_0 : DmaSem sig := 46
abbrev cc5_sem3_1 : DmaSem sig := 47
abbrev cc5_sem4_0 : DmaSem sig := 48
abbrev cc5_sem5_0 : DmaSem sig := 49
abbrev cc5_sem5_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S40 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x40 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S128 : S_.BroadcastsInDim S128 (![] : Fin 0 → Fin S128.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128x128_S128x128_0_0 : ∀ a, (![0, 0] : Fin 2 → Nat) a + S128x128.size a ≤ S128x128.size a
  h_S128x128 : 0 < S128x128.numel
  broadcasts_S5000x1_S5000x128 : S5000x1.Broadcasts S5000x128
  bitsLt_bf16_f32 : FTy.bits .bf16 < FTy.bits .f32
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1600000_S1600000x40_0 : S1600000.BroadcastsInDim S1600000x40 (![0] : Fin 1 → Fin S1600000x40.rank)
  bcast_S_S1600000x40 : S_.BroadcastsInDim S1600000x40 (![] : Fin 0 → Fin S1600000x40.rank)
  bcast_S_S100000x40 : S_.BroadcastsInDim S100000x40 (![] : Fin 0 → Fin S100000x40.rank)
  shapeCasts_S5000x40_S5000x40 : S5000x40.ShapeCasts S5000x40
  inb_S40_S40_0 : ∀ a, (![0] : Fin 1 → Nat) a + S40.size a ≤ S40.size a
  h_S40 : 0 < S40.numel
  broadcasts_S5000x1_S5000x40 : S5000x1.Broadcasts S5000x40
  shapeCasts_S40_S1x40 : S40.ShapeCasts S1x40
  broadcasts_S1x40_S5000x40 : S1x40.Broadcasts S5000x40
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x40.size a ≤ S128x40.size a
  hwx4_2 : ∀ i : grid4.Coords, EltTy.bits .f32 = 32 ∨ (Rect.block (s := S128x40) S128x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S100000x40.size a
  hwx4_3 : ∀ i : grid4.Coords, EltTy.bits .f32 = 32 ∨ (Rect.block (s := S100000x40) S5000x40.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x40.size a ≤ S128x40.size a
  hwx5_1 : ∀ i : grid5.Coords, EltTy.bits .f32 = 32 ∨ (Rect.block (s := S128x40) S128x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S100000x40.size a
  hwx5_2 : ∀ i : grid5.Coords, EltTy.bits .f32 = 32 ∨ (Rect.block (s := S100000x40) S5000x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .f32 = 32 ∨ (Rect.block (s := S100000x1) S5000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S40.size a ≤ S40.size a
  hwx5_4 : ∀ i : grid5.Coords, EltTy.bits .f32 = 32 ∨ (Rect.block (s := S40) S40.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x40.size a ≤ S100000x40.size a
  hwx5_5 : ∀ i : grid5.Coords, EltTy.bits .f32 = 32 ∨ (Rect.block (s := S100000x40) S5000x40.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v25) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S128x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v26) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v25) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v30) S5000x40.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v12) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_arg6) S40.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v31) S5000x40.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x128, .f32⟩
  | .hbm, ⟨8, _⟩ => ⟨S128x128, .f32⟩
  | .hbm, ⟨9, _⟩ => ⟨S128x40, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x40, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x40, .f32⟩
  | .hbm, ⟨84, _⟩ => ⟨S_, .f32⟩
  | .hbm, ⟨85, _⟩ => ⟨S100000x40, .f32⟩
  | .hbm, ⟨86, _⟩ => ⟨S1600000x1, .i32⟩
  | .hbm, ⟨87, _⟩ => ⟨S100000x40, .f32⟩
  | .hbm, ⟨88, _⟩ => ⟨S100000x40, .f32⟩
  | .hbm, ⟨89, _⟩ => ⟨S100000x40, .f32⟩
  | .hbm, ⟨90, _⟩ => ⟨S1x40, .f32⟩
  | .hbm, ⟨91, _⟩ => ⟨S100000x40, .f32⟩
  | .hbm, ⟨92, _⟩ => ⟨S100000x40, .f32⟩
  | .hbm, ⟨93, _⟩ => ⟨S100000x40, .f32⟩
  | .hbm, ⟨94, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Spec.lean ====
/-
  The two dense steps of a graph-convolution layer, as whole-array functions on the extended reals, for any
  numbers of nodes, input features and output features:

    proj x s w   at (p, q)  =  ∑ k, (x[p,k] · s[p,0]) · w[k,q]            (the scaled projection)
    comb x l a s b at (p, q) =  a[p,q] · s[p,0] + ∑ k, x[p,k] · l[k,q] + b[q]   (aggregate, rescale, add the linear branch and the bias)

  and how a plain M×K by K×N matrix product — on the matrix unit into a zero accumulator, or on the host — reads at an
  index as a sum over the K contracted positions. A row of either result depends on the same row of x, s, a alone,
  which is what lets a row block of the result be computed from the row blocks of those operands.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.GraphConv

open Idealize.ShloMosaic Idealize.ShloMosaic.ValueIdx

/-- The M×N shape, the M×1 column shape and the length-N vector shape, as literals. -/
abbrev Sh2 (a b : Nat) : Shape := ⟨2, ![a, b]⟩
abbrev Sh1 (a : Nat) : Shape := ⟨1, ![a]⟩

/-- The all-zero offsets of a whole-buffer access, rank 2 and rank 1. -/
theorem hz2 : (![0, 0] : Fin 2 → Nat) = fun _ => 0 := funext fun a => by fin_cases a <;> rfl
theorem hz1 : (![0] : Fin 1 → Nat) = fun _ => 0 := funext fun a => by fin_cases a; rfl

/-- The scaled projection: row p of x times its scale s[p,0], times w. -/
def proj {M K N : Nat} (x : FVec Ideal (Sh2 M K) .f32) (s : FVec Ideal (Sh2 M 1) .f32) (w : FVec Ideal (Sh2 K N) .f32) :
    FVec Ideal (Sh2 M N) .f32 :=
  fun i => ∑ k : Fin K, (x (ix2 (i 0) k) * s (ix2 (i 0) (0 : Fin 1))) * w (ix2 k (i 1))

/-- The combine step: the aggregate rescaled row by row, plus x times l, plus the bias on every row. -/
def comb {M K N : Nat} (x : FVec Ideal (Sh2 M K) .f32) (l : FVec Ideal (Sh2 K N) .f32) (a : FVec Ideal (Sh2 M N) .f32)
    (s : FVec Ideal (Sh2 M 1) .f32) (b : FVec Ideal (Sh1 N) .f32) : FVec Ideal (Sh2 M N) .f32 :=
  fun i => a (ix2 (i 0) (i 1)) * s (ix2 (i 0) (0 : Fin 1)) + (∑ k : Fin K, x (ix2 (i 0) k) * l (ix2 k (i 1))) + b (ix1 (i 1))

/-- One layer: project, aggregate over the edges (`agg`, whatever it is), combine. -/
def layer {M K N : Nat} (agg : FVec Ideal (Sh2 M N) .f32 → FVec Ideal (Sh2 M N) .f32) (ns nd : FVec Ideal (Sh2 M 1) .f32)
    (x : FVec Ideal (Sh2 M K) .f32) (w l : FVec Ideal (Sh2 K N) .f32) (b : FVec Ideal (Sh1 N) .f32) : FVec Ideal (Sh2 M N) .f32 :=
  comb x l (agg (proj x ns w)) nd b

/-- The three layers: 128 → 128 → 128 → 40 features, the first two with the bias `z`, the last with `b2`. -/
def net {M : Nat} (agg128 : FVec Ideal (Sh2 M 128) .f32 → FVec Ideal (Sh2 M 128) .f32)
    (agg40 : FVec Ideal (Sh2 M 40) .f32 → FVec Ideal (Sh2 M 40) .f32) (ns nd : FVec Ideal (Sh2 M 1) .f32) (z : FVec Ideal (Sh1 128) .f32)
    (x : FVec Ideal (Sh2 M 128) .f32) (w0 w1 : FVec Ideal (Sh2 128 128) .f32) (w2 : FVec Ideal (Sh2 128 40) .f32) (b2 : FVec Ideal (Sh1 40) .f32)
    (l0 l1 : FVec Ideal (Sh2 128 128) .f32) (l2 : FVec Ideal (Sh2 128 40) .f32) : FVec Ideal (Sh2 M 40) .f32 :=
  layer agg40 ns nd (layer agg128 ns nd (layer agg128 ns nd x w0 l0 z) w1 l1 z) w2 l2 b2

/-! ## A plain matrix product at an index -/

theorem plain_contr_rank (M K N : Nat) : (DotDims.plain M K N).contr.rank = 1 := rfl
theorem plain_contr_size (M K N : Nat) : (DotDims.plain M K N).contr.size ⟨0, by rw [plain_contr_rank]; exact Nat.one_pos⟩ = K := rfl

/-- The contracted position k sits on the left operand's second axis, beside the result's row. -/
theorem plain_lhsIdx (M K N : Nat) (j : (Sh2 M N).Idx) (k : Fin K) :
    (DotDims.plain M K N).lhsIdx j ((contrEquiv1 (DotDims.plain M K N) K (plain_contr_rank M K N) (plain_contr_size M K N)).symm k)
      = ix2 (j 0) k := by
  funext a; apply Fin.ext
  match a with
  | ⟨0, _⟩ => rfl
  | ⟨1, _⟩ =>
    exact ((DotDims.plain M K N).lhsIdx_val_of_single (cl := (1 : Fin 2)) rfl j _).trans
      (contrEquiv1_symm_val (DotDims.plain M K N) K (plain_contr_rank M K N) (plain_contr_size M K N) k)

/-- … and on the right operand's first axis, beside the result's column. -/
theorem plain_rhsIdx (M K N : Nat) (j : (Sh2 M N).Idx) (k : Fin K) :
    (DotDims.plain M K N).rhsIdx j ((contrEquiv1 (DotDims.plain M K N) K (plain_contr_rank M K N) (plain_contr_size M K N)).symm k)
      = ix2 k (j 1) := by
  funext a; apply Fin.ext
  match a with
  | ⟨0, _⟩ =>
    exact ((DotDims.plain M K N).rhsIdx_val_of_single (cr := (0 : Fin 2)) rfl j _).trans
      (contrEquiv1_symm_val (DotDims.plain M K N) K (plain_contr_rank M K N) (plain_contr_size M K N) k)
  | ⟨1, _⟩ => rfl

/-- The matrix unit's product into a zero accumulator, at an index: the sum over the K contracted positions. -/
theorem matmul_plain_apply {M K N : Nat} {φ₁ φ₂ : FTy} (prec : Option ContractPrecision)
    (l : FVec Ideal (Sh2 M K) φ₁) (r : FVec Ideal (Sh2 K N) φ₂) (j : (Sh2 M N).Idx) :
    matmul (DotDims.plain M K N) prec l r (constant (F := Ideal) (Sh2 M N) .f32 0x00000000#32) j
      = ∑ k : Fin K, l (ix2 (j 0) k) * r (ix2 k (j 1)) := by
  refine (Ideal.matmul_constant_zero_apply (DotDims.plain M K N) prec l r j).trans ?_
  rw [← Equiv.sum_comp (contrEquiv1 (DotDims.plain M K N) K (plain_contr_rank M K N) (plain_contr_size M K N)).symm]
  refine Finset.sum_congr rfl fun k _ => ?_
  rw [plain_lhsIdx, plain_rhsIdx]; rfl

/-- The host's product, at an index: the same sum. -/
theorem dotGeneral_plain_apply {M K N : Nat} {φ₁ φ₂ : FTy} (prec : Option ContractPrecision)
    (l : FVec Ideal (Sh2 M K) φ₁) (r : FVec Ideal (Sh2 K N) φ₂) (j : (Sh2 M N).Idx) :
    Host.dotGeneral (DotDims.plain M K N) prec l r j = ∑ k : Fin K, l (ix2 (j 0) k) * r (ix2 k (j 1)) := by
  simp only [Host.dotGeneral]
  refine (Ideal.dotGeneral_apply (DotDims.plain M K N) prec _ l r j).trans ?_
  rw [← Equiv.sum_comp (contrEquiv1 (DotDims.plain M K N) K (plain_contr_rank M K N) (plain_contr_size M K N)).symm]
  refine Finset.sum_congr rfl fun k _ => ?_
  rw [plain_lhsIdx, plain_rhsIdx]; rfl

/-! ## The two broadcasts of a layer, at an index: a column of row scales over the columns, a bias vector over the rows -/

/-- In-kernel: a column [M,1] broadcast to [M,K] reads, at (p, k), the column's row p. -/
theorem broadcastTo_col_apply {α : Type} {M K : Nat} (s : (Sh2 M 1).Idx → α) (h : (Sh2 M 1).Broadcasts (Sh2 M K)) (p : Fin M) (k : Fin K) :
    broadcastTo (Sh2 M K) s h (ix2 p k) = s (ix2 p (0 : Fin 1)) := by
  refine broadcastTo_apply s h (ix2 p k) (ix2 p (0 : Fin 1)) fun a => ?_
  match a with
  | ⟨0, _⟩ =>
    show p.val = if M = 1 then 0 else p.val
    by_cases hM : M = 1
    · rw [if_pos hM]; have := p.isLt; omega
    · rw [if_neg hM]
  | ⟨1, _⟩ => rfl

/-- On the host: the same broadcast spelt with dimension numbers [0, 1]. -/
theorem broadcastInDim_col_apply {α : Type} {M K : Nat} (s : (Sh2 M 1).Idx → α) (h : (Sh2 M 1).BroadcastsInDim (Sh2 M K) ![0, 1])
    (p : Fin M) (k : Fin K) : broadcastInDim (Sh2 M K) ![0, 1] h s (ix2 p k) = s (ix2 p (0 : Fin 1)) := by
  refine broadcastInDim_apply ![0, 1] h s (ix2 p k) (ix2 p (0 : Fin 1)) fun a => ?_
  match a with
  | ⟨0, _⟩ =>
    show p.val = if M = 1 then 0 else p.val
    by_cases hM : M = 1
    · rw [if_pos hM]; have := p.isLt; omega
    · rw [if_neg hM]
  | ⟨1, _⟩ => rfl

/-- In-kernel: a vector [N] recast to one row [1,N] and broadcast over M rows reads, at (p, q), the vector's entry q. -/
theorem broadcastTo_row_apply {α : Type} {M N : Nat} (b : (Sh1 N).Idx → α) (hc : (Sh1 N).ShapeCasts (Sh2 1 N))
    (h : (Sh2 1 N).Broadcasts (Sh2 M N)) (p : Fin M) (q : Fin N) :
    broadcastTo (Sh2 M N) (shapeCast (Sh2 1 N) b hc) h (ix2 p q) = b (ix1 q) := by
  exact (broadcastTo_1b_ab_apply (shapeCast (Sh2 1 N) b hc) h p q).trans (shapeCast_a_1a_apply b hc (0 : Fin 1) q)

/-- On the host: a vector [N] laid as one row [1,N] and then over M rows, both spelt with dimension numbers. -/
theorem broadcastInDim_row_apply {α : Type} {M N : Nat} (b : (Sh1 N).Idx → α) (h1 : (Sh1 N).BroadcastsInDim (Sh2 1 N) ![1])
    (h2 : (Sh2 1 N).BroadcastsInDim (Sh2 M N) ![0, 1]) (p : Fin M) (q : Fin N) :
    broadcastInDim (Sh2 M N) ![0, 1] h2 (broadcastInDim (Sh2 1 N) ![1] h1 b) (ix2 p q) = b (ix1 q) := by
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => rfl
    | ⟨1, _⟩ =>
      show q.val = if N = 1 then 0 else q.val
      by_cases hN : N = 1
      · rw [if_pos hN]; have := q.isLt; omega
      · rw [if_neg hN]
  · match a with
    | ⟨0, _⟩ =>
      show q.val = if N = 1 then 0 else q.val
      by_cases hN : N = 1
      · rw [if_pos hN]; have := q.isLt; omega
      · rw [if_neg hN]

/-! ## The layer's two steps as the kernel bodies and as the host spell them -/

theorem proj_apply {M K N : Nat} (x : FVec Ideal (Sh2 M K) .f32) (s : FVec Ideal (Sh2 M 1) .f32) (w : FVec Ideal (Sh2 K N) .f32)
    (p : Fin M) (q : Fin N) : proj x s w (ix2 p q) = ∑ k : Fin K, (x (ix2 p k) * s (ix2 p (0 : Fin 1))) * w (ix2 k q) := rfl

theorem comb_apply {M K N : Nat} (x : FVec Ideal (Sh2 M K) .f32) (l : FVec Ideal (Sh2 K N) .f32) (a : FVec Ideal (Sh2 M N) .f32)
    (s : FVec Ideal (Sh2 M 1) .f32) (b : FVec Ideal (Sh1 N) .f32) (p : Fin M) (q : Fin N) :
    comb x l a s b (ix2 p q) = a (ix2 p q) * s (ix2 p (0 : Fin 1)) + (∑ k : Fin K, x (ix2 p k) * l (ix2 k q)) + b (ix1 q) := rfl

/-- The projection kernel's body: x scaled by the broadcast column, both operands narrowed to bf16 (no change on the
    extended reals), multiplied on the matrix unit into zeros. -/
theorem kernel_proj {M K N : Nat} (x : FVec Ideal (Sh2 M K) .f32) (s : FVec Ideal (Sh2 M 1) .f32) (w : FVec Ideal (Sh2 K N) .f32)
    (hb : (Sh2 M 1).Broadcasts (Sh2 M K)) (h1 : FTy.bf16.bits < FTy.f32.bits) (h2 : FTy.bf16.bits < FTy.f32.bits) :
    matmul (DotDims.plain M K N) none (truncf .bf16 (mulf x (broadcastTo (Sh2 M K) s hb)) h1) (truncf .bf16 w h2)
      (constant (F := Ideal) (Sh2 M N) .f32 0x00000000#32) = proj x s w := by
  funext j
  obtain ⟨p, q, rfl⟩ : ∃ (p : Fin M) (q : Fin N), j = ix2 p q := ⟨j 0, j 1, eq_ix2 j⟩
  rw [matmul_plain_apply, proj_apply]
  refine Finset.sum_congr rfl fun k _ => ?_
  show (x (ix2 p k) * broadcastTo (Sh2 M K) s hb (ix2 p k)) * w (ix2 k q) = _
  rw [broadcastTo_col_apply]

/-- The host's projection: the same with the host's broadcast and product. -/
theorem host_proj {M K N : Nat} (x : FVec Ideal (Sh2 M K) .f32) (s : FVec Ideal (Sh2 M 1) .f32) (w : FVec Ideal (Sh2 K N) .f32)
    (hb : (Sh2 M 1).BroadcastsInDim (Sh2 M K) ![0, 1]) :
    Host.dotGeneral (DotDims.plain M K N) none (mulf x (broadcastInDim (Sh2 M K) ![0, 1] hb s)) w = proj x s w := by
  funext j
  obtain ⟨p, q, rfl⟩ : ∃ (p : Fin M) (q : Fin N), j = ix2 p q := ⟨j 0, j 1, eq_ix2 j⟩
  rw [dotGeneral_plain_apply, proj_apply]
  refine Finset.sum_congr rfl fun k _ => ?_
  show (x (ix2 p k) * broadcastInDim (Sh2 M K) ![0, 1] hb s (ix2 p k)) * w (ix2 k q) = _
  rw [broadcastInDim_col_apply]

/-- The combine kernel's body. -/
theorem kernel_comb {M K N : Nat} (x : FVec Ideal (Sh2 M K) .f32) (l : FVec Ideal (Sh2 K N) .f32) (a : FVec Ideal (Sh2 M N) .f32)
    (s : FVec Ideal (Sh2 M 1) .f32) (b : FVec Ideal (Sh1 N) .f32)
    (hb : (Sh2 M 1).Broadcasts (Sh2 M N)) (hc : (Sh1 N).ShapeCasts (Sh2 1 N)) (hr : (Sh2 1 N).Broadcasts (Sh2 M N))
    (h1 : FTy.bf16.bits < FTy.f32.bits) (h2 : FTy.bf16.bits < FTy.f32.bits) :
    addf (addf (mulf a (broadcastTo (Sh2 M N) s hb))
        (matmul (DotDims.plain M K N) none (truncf .bf16 x h1) (truncf .bf16 l h2) (constant (F := Ideal) (Sh2 M N) .f32 0x00000000#32)))
      (broadcastTo (Sh2 M N) (shapeCast (Sh2 1 N) b hc) hr) = comb x l a s b := by
  funext j
  obtain ⟨p, q, rfl⟩ : ∃ (p : Fin M) (q : Fin N), j = ix2 p q := ⟨j 0, j 1, eq_ix2 j⟩
  rw [comb_apply]
  show (a (ix2 p q) * broadcastTo (Sh2 M N) s hb (ix2 p q)
      + matmul (DotDims.plain M K N) none (truncf .bf16 x h1) (truncf .bf16 l h2) (constant (F := Ideal) (Sh2 M N) .f32 0x00000000#32) (ix2 p q))
      + broadcastTo (Sh2 M N) (shapeCast (Sh2 1 N) b hc) hr (ix2 p q) = _
  rw [broadcastTo_col_apply, broadcastTo_row_apply, matmul_plain_apply]
  rfl

/-- The host's combine with a bias: the bias joins the rescaled aggregate before the linear branch does; on the
    extended reals the three-term sum does not depend on that order. -/
theorem host_comb_bias {M K N : Nat} (x : FVec Ideal (Sh2 M K) .f32) (l : FVec Ideal (Sh2 K N) .f32) (a : FVec Ideal (Sh2 M N) .f32)
    (s : FVec Ideal (Sh2 M 1) .f32) (b : FVec Ideal (Sh1 N) .f32)
    (hb : (Sh2 M 1).BroadcastsInDim (Sh2 M N) ![0, 1]) (h1 : (Sh1 N).BroadcastsInDim (Sh2 1 N) ![1])
    (h2 : (Sh2 1 N).BroadcastsInDim (Sh2 M N) ![0, 1]) :
    addf (addf (mulf a (broadcastInDim (Sh2 M N) ![0, 1] hb s)) (broadcastInDim (Sh2 M N) ![0, 1] h2 (broadcastInDim (Sh2 1 N) ![1] h1 b)))
      (Host.dotGeneral (DotDims.plain M K N) none x l) = comb x l a s b := by
  funext j
  obtain ⟨p, q, rfl⟩ : ∃ (p : Fin M) (q : Fin N), j = ix2 p q := ⟨j 0, j 1, eq_ix2 j⟩
  rw [comb_apply]
  show (a (ix2 p q) * broadcastInDim (Sh2 M N) ![0, 1] hb s (ix2 p q)
      + broadcastInDim (Sh2 M N) ![0, 1] h2 (broadcastInDim (Sh2 1 N) ![1] h1 b) (ix2 p q))
      + Host.dotGeneral (DotDims.plain M K N) none x l (ix2 p q) = _
  rw [broadcastInDim_col_apply, broadcastInDim_row_apply, dotGeneral_plain_apply]
  exact add_right_comm _ _ _

/-- The host's combine without a bias is the combine with a bias of zeros. -/
theorem host_comb_nobias {M K N : Nat} (x : FVec Ideal (Sh2 M K) .f32) (l : FVec Ideal (Sh2 K N) .f32) (a : FVec Ideal (Sh2 M N) .f32)
    (s : FVec Ideal (Sh2 M 1) .f32) (z : FVec Ideal (Sh1 N) .f32) (hz : ∀ i, z i = 0)
    (hb : (Sh2 M 1).BroadcastsInDim (Sh2 M N) ![0, 1]) :
    addf (mulf a (broadcastInDim (Sh2 M N) ![0, 1] hb s)) (Host.dotGeneral (DotDims.plain M K N) none x l) = comb x l a s z := by
  funext j
  obtain ⟨p, q, rfl⟩ : ∃ (p : Fin M) (q : Fin N), j = ix2 p q := ⟨j 0, j 1, eq_ix2 j⟩
  rw [comb_apply, hz, add_zero]
  show a (ix2 p q) * broadcastInDim (Sh2 M N) ![0, 1] hb s (ix2 p q) + Host.dotGeneral (DotDims.plain M K N) none x l (ix2 p q) = _
  rw [broadcastInDim_col_apply, dotGeneral_plain_apply]
  rfl

/-- A row block of a projection is the projection of the row blocks: row P of the whole arrays is row p of the blocks. -/
theorem proj_rowblock {M Mb K N : Nat} (X : FVec Ideal (Sh2 M K) .f32) (S : FVec Ideal (Sh2 M 1) .f32) (W : FVec Ideal (Sh2 K N) .f32)
    (xb : FVec Ideal (Sh2 Mb K) .f32) (sb : FVec Ideal (Sh2 Mb 1) .f32) (wb : FVec Ideal (Sh2 K N) .f32)
    (p : Fin Mb) (P : Fin M) (q : Fin N)
    (hx : ∀ k, xb (ix2 p k) = X (ix2 P k)) (hs : sb (ix2 p (0 : Fin 1)) = S (ix2 P (0 : Fin 1))) (hw : ∀ k, wb (ix2 k q) = W (ix2 k q)) :
    proj xb sb wb (ix2 p q) = proj X S W (ix2 P q) := by
  rw [proj_apply, proj_apply]
  exact Finset.sum_congr rfl fun k _ => by rw [hx, hs, hw]

/-- A row block of a combine step is the combine step of the row blocks. -/
theorem comb_rowblock {M Mb K N : Nat} (X : FVec Ideal (Sh2 M K) .f32) (L : FVec Ideal (Sh2 K N) .f32) (A : FVec Ideal (Sh2 M N) .f32)
    (S : FVec Ideal (Sh2 M 1) .f32) (B : FVec Ideal (Sh1 N) .f32)
    (xb : FVec Ideal (Sh2 Mb K) .f32) (lb : FVec Ideal (Sh2 K N) .f32) (ab : FVec Ideal (Sh2 Mb N) .f32)
    (sb : FVec Ideal (Sh2 Mb 1) .f32) (bb : FVec Ideal (Sh1 N) .f32)
    (p : Fin Mb) (P : Fin M) (q : Fin N)
    (hx : ∀ k, xb (ix2 p k) = X (ix2 P k)) (hl : ∀ k, lb (ix2 k q) = L (ix2 k q)) (ha : ab (ix2 p q) = A (ix2 P q))
    (hs : sb (ix2 p (0 : Fin 1)) = S (ix2 P (0 : Fin 1))) (hbias : bb (ix1 q) = B (ix1 q)) :
    comb xb lb ab sb bb (ix2 p q) = comb X L A S B (ix2 P q) := by
  rw [comb_apply, comb_apply, ha, hs, hbias]
  exact congrArg (fun t => A (ix2 P q) * S (ix2 P (0 : Fin 1)) + t + B (ix1 q)) (Finset.sum_congr rfl fun k _ => by rw [hx, hl])

end Cert.GraphConv

end
-- ==== Proof.HostK.lean ====
/-
  The host side of the kernel's program, named: the two columns of row scales (rsqrt of the clamped out- and in-degrees),
  the zero bias of the first two layers, and the edge aggregation between a projection and its combine step — take
  the rows of the projection at the wrapped source indices, filling a row with a stand-in when any wrapped index is
  out of [0, 99999], then add the taken rows into the rows named by the destination indices.
-/
import proofs.«423416_j17660905521700_1_alg».proof.Proof.Gen.KernelIdeal
import Idealize.ShloMosaic.PureOps.Ideal

noncomputable section

open Idealize.ShloMosaic Idealize.ShloMosaic.TcCoe Idealize.SL.Sem

namespace Cert.KernelIdeal.Layer

open Cert.KernelIdeal Cert.KernelIdeal.Gen

/-- The constant one, and a vector of ones over the edges. -/
def oneK : FVec Ideal S_ .f32 := constant (F := Ideal) S_ .f32 0x3F800000#32
def onesK : FVec Ideal S1600000 .f32 := broadcastInDim S1600000 ![] bcast_S_S1600000 (constant (F := Ideal) S_ .f32 0x3F800000#32)

/-- The degree of each node: the weights `u` of the edges added into the nodes the indices name, from zeros. -/
def degK (idx : IVec S1600000 32) (u : FVec Ideal S1600000 .f32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 idx) u

/-- Clamping from below by a scalar. -/
def clipOf (lo : FVec Ideal S_ .f32) (x : FVec Ideal S100000 .f32) : FVec Ideal S100000 .f32 :=
  maximumf (broadcastInDim S100000 ![] bcast_S_S100000 (id lo)) x

/-- The reciprocal square root, as a column. -/
def scaleOf (x : FVec Ideal S100000 .f32) : FVec Ideal S100000x1 .f32 :=
  broadcastInDim S100000x1 ![0] bcast_S100000_S100000x1_0 (Host.rsqrt x)

/-- A column of row scales from an index vector: rsqrt of max(1, the number of edges naming each node). -/
def scaleK (idx : IVec S1600000 32) : FVec Ideal S100000x1 .f32 := scaleOf (clipOf oneK (degK idx onesK))

/-- The zero bias of the first two layers. -/
def zeroK : FVec Ideal S128 .f32 := broadcastInDim S128 ![] bcast_S_S128 (constant (F := Ideal) S_ .f32 0x00000000#32)

/-- The source indices with the negative ones wrapped by 100000, as a column. -/
def widxK (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge: is its wrapped source index in [0, 99999]? -/
def okK (src : IVec S1600000 32) : IVec S1600000 1 :=
  Host.reduce IntOp.andi
    (andi (cmpi .sge (widxK src) (broadcastInDim S1600000x1 ![] bcast_S_S1600000x1 (constantI S_ 32 0#32)))
      (cmpi .sle (widxK src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The taken rows, 128 wide: row e is row (wrapped src e) of p where that index is in range, the stand-in otherwise. -/
def takeK128 (src : IVec S1600000 32) (p : FVec Ideal S100000x128 .f32) : FVec Ideal S1600000x128 .f32 :=
  select (broadcastInDim S1600000x128 ![0] bcast_S1600000_S1600000x128_0 (okK src))
    (Host.gather gather_S100000x128_S1600000x1_S1600000x128_1_0_n_n_0_1_1128 p (widxK src))
    (broadcastInDim S1600000x128 ![] bcast_S_S1600000x128 (constant (F := Ideal) S_ .f32 0x7FC00000#32))

/-- The same, 40 wide. -/
def takeK40 (src : IVec S1600000 32) (p : FVec Ideal S100000x40 .f32) : FVec Ideal S1600000x40 .f32 :=
  select (broadcastInDim S1600000x40 ![0] bcast_S1600000_S1600000x40_0 (okK src))
    (Host.gather gather_S100000x40_S1600000x1_S1600000x40_1_0_n_n_0_1_140 p (widxK src))
    (broadcastInDim S1600000x40 ![] bcast_S_S1600000x40 (constant (F := Ideal) S_ .f32 0x7FC00000#32))

/-- Rows added into the rows the destination indices name, from zeros: 128 wide and 40 wide. -/
def scatK128 (dst : IVec S1600000 32) (u : FVec Ideal S1600000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst) u
def scatK40 (dst : IVec S1600000 32) (u : FVec Ideal S1600000x40 .f32) : FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst) u

/-- The edge aggregation: the taken rows added into the rows the destination indices name. -/
def aggK128 (src dst : IVec S1600000 32) (p : FVec Ideal S100000x128 .f32) : FVec Ideal S100000x128 .f32 :=
  scatK128 dst (takeK128 src p)
def aggK40 (src dst : IVec S1600000 32) (p : FVec Ideal S100000x40 .f32) : FVec Ideal S100000x40 .f32 :=
  scatK40 dst (takeK40 src p)

end Cert.KernelIdeal.Layer

end
-- ==== Proof.Proj0.lean ====
/-
  The first projection launch, read as a value. The grid has 20 points; point t stages rows 5000·t … 5000·t + 4999 of
  x and of the column of row scales, the whole weight matrix, and writes back the same rows of the result. The body's
  one store is the projection of the staged blocks; since a row of a projection depends on that row of x and of the
  scales alone, what point t writes back is rows 5000·t … of the projection of the WHOLE arrays, and the 20 row blocks
  tile the result. So the result array ends holding  proj x s w  of the arrays the launch finds.
-/
import proofs.«423416_j17660905521700_1_alg».proof.Proof.Gen.KernelIdeal.Frame
import proofs.«423416_j17660905521700_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.GraphConv

variable (V : (c : Dev nD) → (b : Ref sig .tc) → Buf (Elt Ideal) ((c : Thread nD τ).loc b))

/-- The body's contraction is the plain 5000×128 by 128×128 one. -/
theorem dot0_eq : dot_S5000x128_S128x128_S5000x128_1_0_0_1_n_n = DotDims.plain 5000 128 128 := rfl

/-- The body's store is the projection of the three loaded blocks. -/
theorem pay0_eq (x0 : Vec Ideal S5000x128 .f32) (x1 : Vec Ideal S5000x1 .f32) (x3 : Vec Ideal S128x128 .f32) :
    k0_pay1 (F := Ideal) x0 x1 x3 = proj x0 x1 x3 := by
  unfold k0_pay1
  simp only [shapeCast_self]
  rw [dot0_eq]
  exact kernel_proj x0 x1 x3 _ _ _

/-- The three input arrays as the launch finds them. -/
abbrev xarr0 (c : Dev nD) : FVec Ideal S100000x128 .f32 := V c (Pipeline.arrRef spec0 0)
abbrev sarr0 (c : Dev nD) : FVec Ideal S100000x1 .f32 := V c (Pipeline.arrRef spec0 1)
abbrev warr0 (c : Dev nD) : FVec Ideal S128x128 .f32 := V c (Pipeline.arrRef spec0 2)

/-- The block indices at point t: row block t for x, the scales and the result; block (0, 0) for the weights. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is its row block of the projection of the whole arrays. -/
theorem flushed0_eq (c : Dev nD) (t : Fin cfg0.N) :
    (dat0 V c).flushed 3 t = ((cfg0.win 3).blk t).view.read (Elt Ideal) (proj (xarr0 V c) (sarr0 V c) (warr0 V c)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S5000x1) hz2, View.ld_unit_zero (S := S128x128) hz2]
  rw [pay0_eq]
  obtain ⟨e00, e01, e10, e11, e20, e21, e30, e31⟩ := idx_facts0 t
  have ht : t.val < 20 := by have h := t.isLt; have hN : cfg0.N = 20 := N_0; omega
  funext j
  obtain ⟨p, q, rfl⟩ : ∃ (p : Fin 5000) (q : Fin 128), j = ix2 p q := ⟨j 0, j 1, eq_ix2 j⟩
  have hp := p.isLt
  have hP : 5000 * t.val + p.val < 100000 := by omega
  have hemb : ((cfg0.win 3).blk t).view.emb (ix2 p q) = (ix2 (⟨5000 * t.val + p.val, hP⟩ : Fin 100000) q : S100000x128.Idx) := by
    funext a; apply Fin.ext
    match a with
    | ⟨0, _⟩ => show win0_3.index t (0 : Fin 2) * 5000 + 1 * p.val = 5000 * t.val + p.val; omega
    | ⟨1, _⟩ => show win0_3.index t (1 : Fin 2) * 128 + 1 * q.val = q.val; omega
  show proj (iblk0 V c 0 t) (iblk0 V c 1 t) (iblk0 V c 2 t) (ix2 p q)
    = proj (xarr0 V c) (sarr0 V c) (warr0 V c) (((cfg0.win 3).blk t).view.emb (ix2 p q))
  rw [hemb]
  refine proj_rowblock (xarr0 V c) (sarr0 V c) (warr0 V c) _ _ _ p ⟨5000 * t.val + p.val, hP⟩ q (fun k => ?_) ?_ (fun k => ?_)
  · show V c (Pipeline.arrRef spec0 0) (((cfg0.win 0).blk t).view.emb (ix2 p k)) = V c (Pipeline.arrRef spec0 0) _
    refine congrArg _ (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * k.val = k.val; omega
  · show V c (Pipeline.arrRef spec0 1) (((cfg0.win 1).blk t).view.emb (ix2 p (0 : Fin 1))) = V c (Pipeline.arrRef spec0 1) _
    refine congrArg _ (funext fun a => Fin.ext ?_)
    match a with
    | ⟨0, _⟩ => show win0_1.index t (0 : Fin 2) * 5000 + 1 * p.val = 5000 * t.val + p.val; omega
    | ⟨1, _⟩ => show win0_1.index t (1 : Fin 2) * 1 + 1 * 0 = 0; omega
  · show V c (Pipeline.arrRef spec0 2) (((cfg0.win 2).blk t).view.emb (ix2 k q)) = V c (Pipeline.arrRef spec0 2) _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega

/-- An index of the result array is in point t's block iff each coordinate is in the block's range. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Row r lies in the block of point r / 5000: the 20 row blocks tile the result. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk0]
  obtain ⟨-, -, -, -, -, -, e30, e31⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e31]; omega

/-- The result array after the launch: the projection of the arrays the launch finds. -/
theorem out0_value (c : Dev nD) : (dat0 V c).arrAt 3 cfg0.N = proj (xarr0 V c) (sarr0 V c) (warr0 V c) :=
  (dat0 V c).arrAt_eq_of_cover 3 _ (fun t _ => flushed0_eq V c t) cover0

end Cert.KernelIdeal.Layer

end
-- ==== Proof.Comb1.lean ====
/-
  The first combine launch, read as a value. The grid has 20 points; point t stages rows 5000·t … 5000·t + 4999 of x, of
  the aggregate and of the column of row scales, the whole matrix l and the whole bias vector, and writes back the same
  rows of the result. The body's one store is the combine step of the staged blocks; a row of it depends on that row
  of x, of the aggregate and of the scales alone, so what point t writes back is rows 5000·t … of the combine step of
  the WHOLE arrays, and the 20 row blocks tile the result:  comb x l a s b  of the arrays the launch finds.
-/
import proofs.«423416_j17660905521700_1_alg».proof.Proof.Gen.KernelIdeal.Frame
import proofs.«423416_j17660905521700_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.GraphConv

variable (V : (c : Dev nD) → (b : Ref sig .tc) → Buf (Elt Ideal) ((c : Thread nD τ).loc b))

/-- The body's store is the combine step of the five loaded blocks. -/
theorem pay1_eq (x0 : Vec Ideal S5000x128 .f32) (x1 : Vec Ideal S128x128 .f32) (x2 : Vec Ideal S5000x128 .f32)
    (x3 : Vec Ideal S5000x1 .f32) (x4 : Vec Ideal S128 .f32) :
    k1_pay1 (F := Ideal) x0 x1 x2 x3 x4 = comb x0 x1 x2 x3 x4 := by
  unfold k1_pay1
  simp only [shapeCast_self]
  rw [show dot_S5000x128_S128x128_S5000x128_1_0_0_1_n_n = DotDims.plain 5000 128 128 from rfl]
  exact kernel_comb x0 x1 x2 x3 x4 _ _ _ _ _

/-- The five input arrays as the launch finds them. -/
abbrev xarr1 (c : Dev nD) : FVec Ideal S100000x128 .f32 := V c (Pipeline.arrRef spec1 0)
abbrev larr1 (c : Dev nD) : FVec Ideal S128x128 .f32 := V c (Pipeline.arrRef spec1 1)
abbrev aarr1 (c : Dev nD) : FVec Ideal S100000x128 .f32 := V c (Pipeline.arrRef spec1 2)
abbrev sarr1 (c : Dev nD) : FVec Ideal S100000x1 .f32 := V c (Pipeline.arrRef spec1 3)
abbrev barr1 (c : Dev nD) : FVec Ideal S128 .f32 := V c (Pipeline.arrRef spec1 4)

/-- The block indices at point t: row block t for x, the aggregate, the scales and the result; block 0 for l and the bias. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

set_option maxHeartbeats 1600000 in
/-- What point t writes back is its row block of the combine step of the whole arrays. -/
theorem flushed1_eq (c : Dev nD) (t : Fin cfg1.N) :
    (dat1 V c).flushed 5 t = ((cfg1.win 5).blk t).view.read (Elt Ideal)
      (comb (xarr1 V c) (larr1 V c) (aarr1 V c) (sarr1 V c) (barr1 V c)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S5000x1) hz2, View.ld_unit_zero (S := S128x128) hz2,
    View.ld_unit_zero (S := S128) hz1]
  rw [pay1_eq]
  obtain ⟨e00, e01, e10, e11, e20, e21, e30, e31, e40, e50, e51⟩ := idx_facts1 t
  have ht : t.val < 20 := by have h := t.isLt; have hN : cfg1.N = 20 := N_1; omega
  funext j
  obtain ⟨p, q, rfl⟩ : ∃ (p : Fin 5000) (q : Fin 128), j = ix2 p q := ⟨j 0, j 1, eq_ix2 j⟩
  have hp := p.isLt
  have hP : 5000 * t.val + p.val < 100000 := by omega
  have hemb : ((cfg1.win 5).blk t).view.emb (ix2 p q) = (ix2 (⟨5000 * t.val + p.val, hP⟩ : Fin 100000) q : S100000x128.Idx) := by
    funext a; apply Fin.ext
    match a with
    | ⟨0, _⟩ => show win1_5.index t (0 : Fin 2) * 5000 + 1 * p.val = 5000 * t.val + p.val; omega
    | ⟨1, _⟩ => show win1_5.index t (1 : Fin 2) * 128 + 1 * q.val = q.val; omega
  show comb (iblk1 V c 0 t) (iblk1 V c 1 t) (iblk1 V c 2 t) (iblk1 V c 3 t) (iblk1 V c 4 t) (ix2 p q)
    = comb (xarr1 V c) (larr1 V c) (aarr1 V c) (sarr1 V c) (barr1 V c) (((cfg1.win 5).blk t).view.emb (ix2 p q))
  rw [hemb]
  refine comb_rowblock (xarr1 V c) (larr1 V c) (aarr1 V c) (sarr1 V c) (barr1 V c) _ _ _ _ _ p ⟨5000 * t.val + p.val, hP⟩ q
    (fun k => ?_) (fun k => ?_) ?_ ?_ ?_
  · show V c (Pipeline.arrRef spec1 0) (((cfg1.win 0).blk t).view.emb (ix2 p k)) = V c (Pipeline.arrRef spec1 0) _
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 128 + 1 * k.val = k.val; omega
  · show V c (Pipeline.arrRef spec1 1) (((cfg1.win 1).blk t).view.emb (ix2 k q)) = V c (Pipeline.arrRef spec1 1) _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = q.val; omega
  · show V c (Pipeline.arrRef spec1 2) (((cfg1.win 2).blk t).view.emb (ix2 p q)) = V c (Pipeline.arrRef spec1 2) _
    refine congrArg _ (funext fun a => Fin.ext ?_)
    match a with
    | ⟨0, _⟩ => show win1_2.index t (0 : Fin 2) * 5000 + 1 * p.val = 5000 * t.val + p.val; omega
    | ⟨1, _⟩ => show win1_2.index t (1 : Fin 2) * 128 + 1 * q.val = q.val; omega
  · show V c (Pipeline.arrRef spec1 3) (((cfg1.win 3).blk t).view.emb (ix2 p (0 : Fin 1))) = V c (Pipeline.arrRef spec1 3) _
    refine congrArg _ (funext fun a => Fin.ext ?_)
    match a with
    | ⟨0, _⟩ => show win1_3.index t (0 : Fin 2) * 5000 + 1 * p.val = 5000 * t.val + p.val; omega
    | ⟨1, _⟩ => show win1_3.index t (1 : Fin 2) * 1 + 1 * 0 = 0; omega
  · show V c (Pipeline.arrRef spec1 4) (((cfg1.win 4).blk t).view.emb (ix1 q)) = V c (Pipeline.arrRef spec1 4) (ix1 q)
    have he : ((cfg1.win 4).blk t).view.emb (ix1 q) = ix1 q := by
      funext a; apply Fin.ext
      match a with
      | ⟨0, _⟩ => show win1_4.index t (0 : Fin 1) * 128 + 1 * q.val = q.val; omega
    rw [he]

/-- An index of the result array is in point t's block iff each coordinate is in the block's range. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v19).slice (win1_5.rect t)).set ↔ _
  rw [View.set_slice_whole, Rect.mem_set_unit]
  exact Iff.rfl

/-- Row r lies in the block of point r / 5000: the 20 row blocks tile the result. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk1]
  obtain ⟨-, -, -, -, -, -, -, -, -, e50, e51⟩ := idx_facts1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e51]; omega

/-- The result array after the launch: the combine step of the arrays the launch finds. -/
theorem out1_value (c : Dev nD) :
    (dat1 V c).arrAt 5 cfg1.N = comb (xarr1 V c) (larr1 V c) (aarr1 V c) (sarr1 V c) (barr1 V c) :=
  (dat1 V c).arrAt_eq_of_cover 5 _ (fun t _ => flushed1_eq V c t) cover1

end Cert.KernelIdeal.Layer

end
-- ==== Proof.Proj2.lean ====
/-
  The second projection launch, read as a value. The grid has 20 points; point t stages rows 5000·t … 5000·t + 4999 of
  x and of the column of row scales, the whole weight matrix, and writes back the same rows of the result. The body's
  one store is the projection of the staged blocks; since a row of a projection depends on that row of x and of the
  scales alone, what point t writes back is rows 5000·t … of the projection of the WHOLE arrays, and the 20 row blocks
  tile the result. So the result array ends holding  proj x s w  of the arrays the launch finds.
-/
import proofs.«423416_j17660905521700_1_alg».proof.Proof.Gen.KernelIdeal.Frame
import proofs.«423416_j17660905521700_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.GraphConv

variable (V : (c : Dev nD) → (b : Ref sig .tc) → Buf (Elt Ideal) ((c : Thread nD τ).loc b))

/-- The body's contraction is the plain 5000×128 by 128×128 one. -/
theorem dot2_eq : dot_S5000x128_S128x128_S5000x128_1_0_0_1_n_n = DotDims.plain 5000 128 128 := rfl

/-- The body's store is the projection of the three loaded blocks. -/
theorem pay2_eq (x0 : Vec Ideal S5000x128 .f32) (x1 : Vec Ideal S5000x1 .f32) (x3 : Vec Ideal S128x128 .f32) :
    k2_pay1 (F := Ideal) x0 x1 x3 = proj x0 x1 x3 := by
  unfold k2_pay1
  simp only [shapeCast_self]
  rw [dot2_eq]
  exact kernel_proj x0 x1 x3 _ _ _

/-- The three input arrays as the launch finds them. -/
abbrev xarr2 (c : Dev nD) : FVec Ideal S100000x128 .f32 := V c (Pipeline.arrRef spec2 0)
abbrev sarr2 (c : Dev nD) : FVec Ideal S100000x1 .f32 := V c (Pipeline.arrRef spec2 1)
abbrev warr2 (c : Dev nD) : FVec Ideal S128x128 .f32 := V c (Pipeline.arrRef spec2 2)

/-- The block indices at point t: row block t for x, the scales and the result; block (0, 0) for the weights. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is its row block of the projection of the whole arrays. -/
theorem flushed2_eq (c : Dev nD) (t : Fin cfg2.N) :
    (dat2 V c).flushed 3 t = ((cfg2.win 3).blk t).view.read (Elt Ideal) (proj (xarr2 V c) (sarr2 V c) (warr2 V c)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S5000x1) hz2, View.ld_unit_zero (S := S128x128) hz2]
  rw [pay2_eq]
  obtain ⟨e00, e01, e10, e11, e20, e21, e30, e31⟩ := idx_facts2 t
  have ht : t.val < 20 := by have h := t.isLt; have hN : cfg2.N = 20 := N_2; omega
  funext j
  obtain ⟨p, q, rfl⟩ : ∃ (p : Fin 5000) (q : Fin 128), j = ix2 p q := ⟨j 0, j 1, eq_ix2 j⟩
  have hp := p.isLt
  have hP : 5000 * t.val + p.val < 100000 := by omega
  have hemb : ((cfg2.win 3).blk t).view.emb (ix2 p q) = (ix2 (⟨5000 * t.val + p.val, hP⟩ : Fin 100000) q : S100000x128.Idx) := by
    funext a; apply Fin.ext
    match a with
    | ⟨0, _⟩ => show win2_3.index t (0 : Fin 2) * 5000 + 1 * p.val = 5000 * t.val + p.val; omega
    | ⟨1, _⟩ => show win2_3.index t (1 : Fin 2) * 128 + 1 * q.val = q.val; omega
  show proj (iblk2 V c 0 t) (iblk2 V c 1 t) (iblk2 V c 2 t) (ix2 p q)
    = proj (xarr2 V c) (sarr2 V c) (warr2 V c) (((cfg2.win 3).blk t).view.emb (ix2 p q))
  rw [hemb]
  refine proj_rowblock (xarr2 V c) (sarr2 V c) (warr2 V c) _ _ _ p ⟨5000 * t.val + p.val, hP⟩ q (fun k => ?_) ?_ (fun k => ?_)
  · show V c (Pipeline.arrRef spec2 0) (((cfg2.win 0).blk t).view.emb (ix2 p k)) = V c (Pipeline.arrRef spec2 0) _
    refine congrArg _ (funext fun a => Fin.ext ?_)
    match a with
    | ⟨0, _⟩ => show win2_0.index t (0 : Fin 2) * 5000 + 1 * p.val = 5000 * t.val + p.val; omega
    | ⟨1, _⟩ => show win2_0.index t (1 : Fin 2) * 128 + 1 * k.val = k.val; omega
  · show V c (Pipeline.arrRef spec2 1) (((cfg2.win 1).blk t).view.emb (ix2 p (0 : Fin 1))) = V c (Pipeline.arrRef spec2 1) _
    refine congrArg _ (funext fun a => Fin.ext ?_)
    match a with
    | ⟨0, _⟩ => show win2_1.index t (0 : Fin 2) * 5000 + 1 * p.val = 5000 * t.val + p.val; omega
    | ⟨1, _⟩ => show win2_1.index t (1 : Fin 2) * 1 + 1 * 0 = 0; omega
  · show V c (Pipeline.arrRef spec2 2) (((cfg2.win 2).blk t).view.emb (ix2 k q)) = V c (Pipeline.arrRef spec2 2) _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega

/-- An index of the result array is in point t's block iff each coordinate is in the block's range. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v20).slice (win2_3.rect t)).set ↔ _
  rw [View.set_slice_whole, Rect.mem_set_unit]
  exact Iff.rfl

/-- Row r lies in the block of point r / 5000: the 20 row blocks tile the result. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_3 _, ?_⟩
  rw [mem_blk2]
  obtain ⟨-, -, -, -, -, -, e30, e31⟩ := idx_facts2 ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e30]; show (i 0).val / 5000 * 5000 ≤ (i 0).val ∧ (i 0).val < (i 0).val / 5000 * 5000 + 5000; omega
  | ⟨1, _⟩ =>
    show win2_3.index _ (1 : Fin 2) * 128 ≤ (i 1).val ∧ (i 1).val < win2_3.index _ (1 : Fin 2) * 128 + 128
    rw [e31]; omega

/-- The result array after the launch: the projection of the arrays the launch finds. -/
theorem out2_value (c : Dev nD) : (dat2 V c).arrAt 3 cfg2.N = proj (xarr2 V c) (sarr2 V c) (warr2 V c) :=
  (dat2 V c).arrAt_eq_of_cover 3 _ (fun t _ => flushed2_eq V c t) cover2

end Cert.KernelIdeal.Layer

end
-- ==== Proof.Comb3.lean ====
/-
  The second combine launch, read as a value. The grid has 20 points; point t stages rows 5000·t … 5000·t + 4999 of x, of
  the aggregate and of the column of row scales, the whole matrix l and the whole bias vector, and writes back the same
  rows of the result. The body's one store is the combine step of the staged blocks; a row of it depends on that row
  of x, of the aggregate and of the scales alone, so what point t writes back is rows 5000·t … of the combine step of
  the WHOLE arrays, and the 20 row blocks tile the result:  comb x l a s b  of the arrays the launch finds.
-/
import proofs.«423416_j17660905521700_1_alg».proof.Proof.Gen.KernelIdeal.Frame
import proofs.«423416_j17660905521700_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.GraphConv

variable (V : (c : Dev nD) → (b : Ref sig .tc) → Buf (Elt Ideal) ((c : Thread nD τ).loc b))

/-- The body's store is the combine step of the five loaded blocks. -/
theorem pay3_eq (x0 : Vec Ideal S5000x128 .f32) (x1 : Vec Ideal S128x128 .f32) (x2 : Vec Ideal S5000x128 .f32)
    (x3 : Vec Ideal S5000x1 .f32) (x4 : Vec Ideal S128 .f32) :
    k3_pay1 (F := Ideal) x0 x1 x2 x3 x4 = comb x0 x1 x2 x3 x4 := by
  unfold k3_pay1
  simp only [shapeCast_self]
  rw [show dot_S5000x128_S128x128_S5000x128_1_0_0_1_n_n = DotDims.plain 5000 128 128 from rfl]
  exact kernel_comb x0 x1 x2 x3 x4 _ _ _ _ _

/-- The five input arrays as the launch finds them. -/
abbrev xarr3 (c : Dev nD) : FVec Ideal S100000x128 .f32 := V c (Pipeline.arrRef spec3 0)
abbrev larr3 (c : Dev nD) : FVec Ideal S128x128 .f32 := V c (Pipeline.arrRef spec3 1)
abbrev aarr3 (c : Dev nD) : FVec Ideal S100000x128 .f32 := V c (Pipeline.arrRef spec3 2)
abbrev sarr3 (c : Dev nD) : FVec Ideal S100000x1 .f32 := V c (Pipeline.arrRef spec3 3)
abbrev barr3 (c : Dev nD) : FVec Ideal S128 .f32 := V c (Pipeline.arrRef spec3 4)

/-- The block indices at point t: row block t for x, the aggregate, the scales and the result; block 0 for l and the bias. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

set_option maxHeartbeats 1600000 in
/-- What point t writes back is its row block of the combine step of the whole arrays. -/
theorem flushed3_eq (c : Dev nD) (t : Fin cfg3.N) :
    (dat3 V c).flushed 5 t = ((cfg3.win 5).blk t).view.read (Elt Ideal)
      (comb (xarr3 V c) (larr3 V c) (aarr3 V c) (sarr3 V c) (barr3 V c)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S5000x1) hz2, View.ld_unit_zero (S := S128x128) hz2,
    View.ld_unit_zero (S := S128) hz1]
  rw [pay3_eq]
  obtain ⟨e00, e01, e10, e11, e20, e21, e30, e31, e40, e50, e51⟩ := idx_facts3 t
  have ht : t.val < 20 := by have h := t.isLt; have hN : cfg3.N = 20 := N_3; omega
  funext j
  obtain ⟨p, q, rfl⟩ : ∃ (p : Fin 5000) (q : Fin 128), j = ix2 p q := ⟨j 0, j 1, eq_ix2 j⟩
  have hp := p.isLt
  have hP : 5000 * t.val + p.val < 100000 := by omega
  have hemb : ((cfg3.win 5).blk t).view.emb (ix2 p q) = (ix2 (⟨5000 * t.val + p.val, hP⟩ : Fin 100000) q : S100000x128.Idx) := by
    funext a; apply Fin.ext
    match a with
    | ⟨0, _⟩ => show win3_5.index t (0 : Fin 2) * 5000 + 1 * p.val = 5000 * t.val + p.val; omega
    | ⟨1, _⟩ => show win3_5.index t (1 : Fin 2) * 128 + 1 * q.val = q.val; omega
  show comb (iblk3 V c 0 t) (iblk3 V c 1 t) (iblk3 V c 2 t) (iblk3 V c 3 t) (iblk3 V c 4 t) (ix2 p q)
    = comb (xarr3 V c) (larr3 V c) (aarr3 V c) (sarr3 V c) (barr3 V c) (((cfg3.win 5).blk t).view.emb (ix2 p q))
  rw [hemb]
  refine comb_rowblock (xarr3 V c) (larr3 V c) (aarr3 V c) (sarr3 V c) (barr3 V c) _ _ _ _ _ p ⟨5000 * t.val + p.val, hP⟩ q
    (fun k => ?_) (fun k => ?_) ?_ ?_ ?_
  · show V c (Pipeline.arrRef spec3 0) (((cfg3.win 0).blk t).view.emb (ix2 p k)) = V c (Pipeline.arrRef spec3 0) _
    refine congrArg _ (funext fun a => Fin.ext ?_)
    match a with
    | ⟨0, _⟩ => show win3_0.index t (0 : Fin 2) * 5000 + 1 * p.val = 5000 * t.val + p.val; omega
    | ⟨1, _⟩ => show win3_0.index t (1 : Fin 2) * 128 + 1 * k.val = k.val; omega
  · show V c (Pipeline.arrRef spec3 1) (((cfg3.win 1).blk t).view.emb (ix2 k q)) = V c (Pipeline.arrRef spec3 1) _
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  · show V c (Pipeline.arrRef spec3 2) (((cfg3.win 2).blk t).view.emb (ix2 p q)) = V c (Pipeline.arrRef spec3 2) _
    refine congrArg _ (funext fun a => Fin.ext ?_)
    match a with
    | ⟨0, _⟩ => show win3_2.index t (0 : Fin 2) * 5000 + 1 * p.val = 5000 * t.val + p.val; omega
    | ⟨1, _⟩ => show win3_2.index t (1 : Fin 2) * 128 + 1 * q.val = q.val; omega
  · show V c (Pipeline.arrRef spec3 3) (((cfg3.win 3).blk t).view.emb (ix2 p (0 : Fin 1))) = V c (Pipeline.arrRef spec3 3) _
    refine congrArg _ (funext fun a => Fin.ext ?_)
    match a with
    | ⟨0, _⟩ => show win3_3.index t (0 : Fin 2) * 5000 + 1 * p.val = 5000 * t.val + p.val; omega
    | ⟨1, _⟩ => show win3_3.index t (1 : Fin 2) * 1 + 1 * 0 = 0; omega
  · show V c (Pipeline.arrRef spec3 4) (((cfg3.win 4).blk t).view.emb (ix1 q)) = V c (Pipeline.arrRef spec3 4) (ix1 q)
    have he : ((cfg3.win 4).blk t).view.emb (ix1 q) = ix1 q := by
      funext a; apply Fin.ext
      match a with
      | ⟨0, _⟩ => show win3_4.index t (0 : Fin 1) * 128 + 1 * q.val = q.val; omega
    rw [he]

/-- An index of the result array is in point t's block iff each coordinate is in the block's range. -/
theorem mem_blk3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v25).slice (win3_5.rect t)).set ↔ _
  rw [View.set_slice_whole, Rect.mem_set_unit]
  exact Iff.rfl

/-- Row r lies in the block of point r / 5000: the 20 row blocks tile the result. -/
theorem cover3 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_5 _, ?_⟩
  rw [mem_blk3]
  obtain ⟨-, -, -, -, -, -, -, -, -, e50, e51⟩ := idx_facts3 ⟨(i 0).val / 5000, by rw [hN]; omega⟩
  intro a
  match a with
  | ⟨0, _⟩ =>
    show win3_5.index _ (0 : Fin 2) * 5000 ≤ (i 0).val ∧ (i 0).val < win3_5.index _ (0 : Fin 2) * 5000 + 5000
    rw [e50]; show (i 0).val / 5000 * 5000 ≤ (i 0).val ∧ (i 0).val < (i 0).val / 5000 * 5000 + 5000; omega
  | ⟨1, _⟩ =>
    show win3_5.index _ (1 : Fin 2) * 128 ≤ (i 1).val ∧ (i 1).val < win3_5.index _ (1 : Fin 2) * 128 + 128
    rw [e51]; omega

/-- The result array after the launch: the combine step of the arrays the launch finds. -/
theorem out3_value (c : Dev nD) :
    (dat3 V c).arrAt 5 cfg3.N = comb (xarr3 V c) (larr3 V c) (aarr3 V c) (sarr3 V c) (barr3 V c) :=
  (dat3 V c).arrAt_eq_of_cover 5 _ (fun t _ => flushed3_eq V c t) cover3

end Cert.KernelIdeal.Layer

end
-- ==== Proof.Proj4.lean ====
/-
  The third projection launch, read as a value. The grid has 20 points; point t stages rows 5000·t … 5000·t + 4999 of
  x and of the column of row scales, the whole 128×40 weight matrix, and writes back the same rows of the result. The body's
  one store is the projection of the staged blocks; since a row of a projection depends on that row of x and of the
  scales alone, what point t writes back is rows 5000·t … of the projection of the WHOLE arrays, and the 20 row blocks
  tile the result. So the result array ends holding  proj x s w  of the arrays the launch finds.
-/
import proofs.«423416_j17660905521700_1_alg».proof.Proof.Gen.KernelIdeal.Frame
import proofs.«423416_j17660905521700_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.GraphConv

variable (V : (c : Dev nD) → (b : Ref sig .tc) → Buf (Elt Ideal) ((c : Thread nD τ).loc b))

/-- The body's contraction is the plain 5000×128 by 128×128 one. -/
theorem dot4_eq : dot_S5000x128_S128x40_S5000x40_1_0_0_1_n_n = DotDims.plain 5000 128 40 := rfl

/-- The body's store is the projection of the three loaded blocks. -/
theorem pay4_eq (x0 : Vec Ideal S5000x128 .f32) (x1 : Vec Ideal S5000x1 .f32) (x3 : Vec Ideal S128x40 .f32) :
    k4_pay1 (F := Ideal) x0 x1 x3 = proj x0 x1 x3 := by
  unfold k4_pay1
  simp only [shapeCast_self]
  rw [dot4_eq]
  exact kernel_proj x0 x1 x3 _ _ _

/-- The three input arrays as the launch finds them. -/
abbrev xarr4 (c : Dev nD) : FVec Ideal S100000x128 .f32 := V c (Pipeline.arrRef spec4 0)
abbrev sarr4 (c : Dev nD) : FVec Ideal S100000x1 .f32 := V c (Pipeline.arrRef spec4 1)
abbrev warr4 (c : Dev nD) : FVec Ideal S128x40 .f32 := V c (Pipeline.arrRef spec4 2)

/-- The block indices at point t: row block t for x, the scales and the result; block (0, 0) for the weights. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is its row block of the projection of the whole arrays. -/
theorem flushed4_eq (c : Dev nD) (t : Fin cfg4.N) :
    (dat4 V c).flushed 3 t = ((cfg4.win 3).blk t).view.read (Elt Ideal) (proj (xarr4 V c) (sarr4 V c) (warr4 V c)) := by
  show (cfg4.win 3).cut (grid4.coords t) ((dat4 V c).after 3 t) = _
  rw [after4_3]
  unfold out4_3
  rw [View.canon_unit_zero hz2]
  simp only [View.ld_unit_zero (S := S5000x128) hz2, View.ld_unit_zero (S := S5000x1) hz2, View.ld_unit_zero (S := S128x40) hz2]
  rw [pay4_eq]
  obtain ⟨e00, e01, e10, e11, e20, e21, e30, e31⟩ := idx_facts4 t
  have ht : t.val < 20 := by have h := t.isLt; have hN : cfg4.N = 20 := N_4; omega
  funext j
  obtain ⟨p, q, rfl⟩ : ∃ (p : Fin 5000) (q : Fin 40), j = ix2 p q := ⟨j 0, j 1, eq_ix2 j⟩
  have hp := p.isLt
  have hP : 5000 * t.val + p.val < 100000 := by omega
  have hemb : ((cfg4.win 3).blk t).view.emb (ix2 p q) = (ix2 (⟨5000 * t.val + p.val, hP⟩ : Fin 100000) q : S100000x40.Idx) := by
    funext a; apply Fin.ext
    match a with
    | ⟨0, _⟩ => show win4_3.index t (0 : Fin 2) * 5000 + 1 * p.val = 5000 * t.val + p.val; omega
    | ⟨1, _⟩ => show win4_3.index t (1 : Fin 2) * 40 + 1 * q.val = q.val; omega
  show proj (iblk4 V c 0 t) (iblk4 V c 1 t) (iblk4 V c 2 t) (ix2 p q)
    = proj (xarr4 V c) (sarr4 V c) (warr4 V c) (((cfg4.win 3).blk t).view.emb (ix2 p q))
  rw [hemb]
  refine proj_rowblock (xarr4 V c) (sarr4 V c) (warr4 V c) _ _ _ p ⟨5000 * t.val + p.val, hP⟩ q (fun k => ?_) ?_ (fun k => ?_)
  · show V c (Pipeline.arrRef spec4 0) (((cfg4.win 0).blk t).view.emb (ix2 p k)) = V c (Pipeline.arrRef spec4 0) _
    refine congrArg _ (funext fun a => Fin.ext ?_)
    match a with
    | ⟨0, _⟩ => show win4_0.index t (0 : Fin 2) * 5000 + 1 * p.val = 5000 * t.val + p.val; omega
    | ⟨1, _⟩ => show win4_0.index t (1 : Fin 2) * 128 + 1 * k.val = k.val; omega
  · show V c (Pipeline.arrRef spec4 1) (((cfg4.win 1).blk t).view.emb (ix2 p (0 : Fin 1))) = V c (Pipeline.arrRef spec4 1) _
    refine congrArg _ (funext fun a => Fin.ext ?_)
    match a with
    | ⟨0, _⟩ => show win4_1.index t (0 : Fin 2) * 5000 + 1 * p.val = 5000 * t.val + p.val; omega
    | ⟨1, _⟩ => show win4_1.index t (1 : Fin 2) * 1 + 1 * 0 = 0; omega
  · show V c (Pipeline.arrRef spec4 2) (((cfg4.win 2).blk t).view.emb (ix2 k q)) = V c (Pipeline.arrRef spec4 2) _
    refine congrArg _ (funext fun a => Fin.ext ?_)
    match a with
    | ⟨0, _⟩ => show win4_2.index t (0 : Fin 2) * 128 + 1 * k.val = k.val; omega
    | ⟨1, _⟩ => show win4_2.index t (1 : Fin 2) * 40 + 1 * q.val = q.val; omega

/-- An index of the result array is in point t's block iff each coordinate is in the block's range. -/
theorem mem_blk4 (t : Fin cfg4.N) (i : S100000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v26).slice (win4_3.rect t)).set ↔ _
  rw [View.set_slice_whole, Rect.mem_set_unit]
  exact Iff.rfl

/-- Row r lies in the block of point r / 5000: the 20 row blocks tile the result. -/
theorem cover4 (i : S100000x40.Idx) : ∃ t : Fin cfg4.N, (cfg4.win 3).flush t = true ∧ i ∈ ((cfg4.win 3).blk t).view.set := by
  have hi0 : (i 0).val < 100000 := (i 0).isLt
  have hi1 : (i 1).val < 40 := (i 1).isLt
  have hN : cfg4.N = 20 := N_4
  refine ⟨⟨(i 0).val / 5000, by rw [hN]; omega⟩, flush4_3 _, ?_⟩
  rw [mem_blk4]
  obtain ⟨-, -, -, -, -, -, e30, e31⟩ := idx_facts4 ⟨(i 0).val / 5000, by rw [hN]; omega⟩
  intro a
  match a with
  | ⟨0, _⟩ =>
    show win4_3.index _ (0 : Fin 2) * 5000 ≤ (i 0).val ∧ (i 0).val < win4_3.index _ (0 : Fin 2) * 5000 + 5000
    rw [e30]; show (i 0).val / 5000 * 5000 ≤ (i 0).val ∧ (i 0).val < (i 0).val / 5000 * 5000 + 5000; omega
  | ⟨1, _⟩ =>
    show win4_3.index _ (1 : Fin 2) * 40 ≤ (i 1).val ∧ (i 1).val < win4_3.index _ (1 : Fin 2) * 40 + 40
    rw [e31]; omega

/-- The result array after the launch: the projection of the arrays the launch finds. -/
theorem out4_value (c : Dev nD) : (dat4 V c).arrAt 3 cfg4.N = proj (xarr4 V c) (sarr4 V c) (warr4 V c) :=
  (dat4 V c).arrAt_eq_of_cover 3 _ (fun t _ => flushed4_eq V c t) cover4

end Cert.KernelIdeal.Layer

end
-- ==== Proof.Comb5.lean ====
/-
  The third combine launch, read as a value. The grid has 20 points; point t stages rows 5000·t … 5000·t + 4999 of x, of
  the aggregate and of the column of row scales, the whole matrix l and the whole bias vector, and writes back the same
  rows of the result. The body's one store is the combine step of the staged blocks; a row of it depends on that row
  of x, of the aggregate and of the scales alone, so what point t writes back is rows 5000·t … of the combine step of
  the WHOLE arrays, and the 20 row blocks tile the result:  comb x l a s b  of the arrays the launch finds.
-/
import proofs.«423416_j17660905521700_1_alg».proof.Proof.Gen.KernelIdeal.Frame
import proofs.«423416_j17660905521700_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.GraphConv

variable (V : (c : Dev nD) → (b : Ref sig .tc) → Buf (Elt Ideal) ((c : Thread nD τ).loc b))

/-- The body's store is the combine step of the five loaded blocks. -/
theorem pay5_eq (x0 : Vec Ideal S5000x128 .f32) (x1 : Vec Ideal S128x40 .f32) (x2 : Vec Ideal S5000x40 .f32)
    (x3 : Vec Ideal S5000x1 .f32) (x4 : Vec Ideal S40 .f32) :
    k5_pay1 (F := Ideal) x0 x1 x2 x3 x4 = comb x0 x1 x2 x3 x4 := by
  unfold k5_pay1
  simp only [shapeCast_self]
  rw [show dot_S5000x128_S128x40_S5000x40_1_0_0_1_n_n = DotDims.plain 5000 128 40 from rfl]
  exact kernel_comb x0 x1 x2 x3 x4 _ _ _ _ _

/-- The five input arrays as the launch finds them. -/
abbrev xarr5 (c : Dev nD) : FVec Ideal S100000x128 .f32 := V c (Pipeline.arrRef spec5 0)
abbrev larr5 (c : Dev nD) : FVec Ideal S128x40 .f32 := V c (Pipeline.arrRef spec5 1)
abbrev aarr5 (c : Dev nD) : FVec Ideal S100000x40 .f32 := V c (Pipeline.arrRef spec5 2)
abbrev sarr5 (c : Dev nD) : FVec Ideal S100000x1 .f32 := V c (Pipeline.arrRef spec5 3)
abbrev barr5 (c : Dev nD) : FVec Ideal S40 .f32 := V c (Pipeline.arrRef spec5 4)

/-- The block indices at point t: row block t for x, the aggregate, the scales and the result; block 0 for l and the bias. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

set_option maxHeartbeats 1600000 in
/-- What point t writes back is its row block of the combine step of the whole arrays. -/
theorem flushed5_eq (c : Dev nD) (t : Fin cfg5.N) :
    (dat5 V c).flushed 5 t = ((cfg5.win 5).blk t).view.read (Elt Ideal)
      (comb (xarr5 V c) (larr5 V c) (aarr5 V c) (sarr5 V c) (barr5 V c)) := by
  show (cfg5.win 5).cut (grid5.coords t) ((dat5 V c).after 5 t) = _
  rw [after5_5]
  unfold out5_5
  rw [View.canon_unit_zero hz2]
  simp only [View.ld_unit_zero (S := S5000x128) hz2, View.ld_unit_zero (S := S5000x1) hz2, View.ld_unit_zero (S := S128x40) hz2, View.ld_unit_zero (S := S5000x40) hz2,
    View.ld_unit_zero (S := S40) hz1]
  rw [pay5_eq]
  obtain ⟨e00, e01, e10, e11, e20, e21, e30, e31, e40, e50, e51⟩ := idx_facts5 t
  have ht : t.val < 20 := by have h := t.isLt; have hN : cfg5.N = 20 := N_5; omega
  funext j
  obtain ⟨p, q, rfl⟩ : ∃ (p : Fin 5000) (q : Fin 40), j = ix2 p q := ⟨j 0, j 1, eq_ix2 j⟩
  have hp := p.isLt
  have hP : 5000 * t.val + p.val < 100000 := by omega
  have hemb : ((cfg5.win 5).blk t).view.emb (ix2 p q) = (ix2 (⟨5000 * t.val + p.val, hP⟩ : Fin 100000) q : S100000x40.Idx) := by
    funext a; apply Fin.ext
    match a with
    | ⟨0, _⟩ => show win5_5.index t (0 : Fin 2) * 5000 + 1 * p.val = 5000 * t.val + p.val; omega
    | ⟨1, _⟩ => show win5_5.index t (1 : Fin 2) * 40 + 1 * q.val = q.val; omega
  show comb (iblk5 V c 0 t) (iblk5 V c 1 t) (iblk5 V c 2 t) (iblk5 V c 3 t) (iblk5 V c 4 t) (ix2 p q)
    = comb (xarr5 V c) (larr5 V c) (aarr5 V c) (sarr5 V c) (barr5 V c) (((cfg5.win 5).blk t).view.emb (ix2 p q))
  rw [hemb]
  refine comb_rowblock (xarr5 V c) (larr5 V c) (aarr5 V c) (sarr5 V c) (barr5 V c) _ _ _ _ _ p ⟨5000 * t.val + p.val, hP⟩ q
    (fun k => ?_) (fun k => ?_) ?_ ?_ ?_
  · show V c (Pipeline.arrRef spec5 0) (((cfg5.win 0).blk t).view.emb (ix2 p k)) = V c (Pipeline.arrRef spec5 0) _
    refine congrArg _ (funext fun a => Fin.ext ?_)
    match a with
    | ⟨0, _⟩ => show win5_0.index t (0 : Fin 2) * 5000 + 1 * p.val = 5000 * t.val + p.val; omega
    | ⟨1, _⟩ => show win5_0.index t (1 : Fin 2) * 128 + 1 * k.val = k.val; omega
  · show V c (Pipeline.arrRef spec5 1) (((cfg5.win 1).blk t).view.emb (ix2 k q)) = V c (Pipeline.arrRef spec5 1) _
    refine congrArg _ (funext fun a => Fin.ext ?_)
    match a with
    | ⟨0, _⟩ => show win5_1.index t (0 : Fin 2) * 128 + 1 * k.val = k.val; omega
    | ⟨1, _⟩ => show win5_1.index t (1 : Fin 2) * 40 + 1 * q.val = q.val; omega
  · show V c (Pipeline.arrRef spec5 2) (((cfg5.win 2).blk t).view.emb (ix2 p q)) = V c (Pipeline.arrRef spec5 2) _
    refine congrArg _ (funext fun a => Fin.ext ?_)
    match a with
    | ⟨0, _⟩ => show win5_2.index t (0 : Fin 2) * 5000 + 1 * p.val = 5000 * t.val + p.val; omega
    | ⟨1, _⟩ => show win5_2.index t (1 : Fin 2) * 40 + 1 * q.val = q.val; omega
  · show V c (Pipeline.arrRef spec5 3) (((cfg5.win 3).blk t).view.emb (ix2 p (0 : Fin 1))) = V c (Pipeline.arrRef spec5 3) _
    refine congrArg _ (funext fun a => Fin.ext ?_)
    match a with
    | ⟨0, _⟩ => show win5_3.index t (0 : Fin 2) * 5000 + 1 * p.val = 5000 * t.val + p.val; omega
    | ⟨1, _⟩ => show win5_3.index t (1 : Fin 2) * 1 + 1 * 0 = 0; omega
  · show V c (Pipeline.arrRef spec5 4) (((cfg5.win 4).blk t).view.emb (ix1 q)) = V c (Pipeline.arrRef spec5 4) (ix1 q)
    have he : ((cfg5.win 4).blk t).view.emb (ix1 q) = ix1 q := by
      funext a; apply Fin.ext
      match a with
      | ⟨0, _⟩ => show win5_4.index t (0 : Fin 1) * 40 + 1 * q.val = q.val; omega
    rw [he]

/-- An index of the result array is in point t's block iff each coordinate is in the block's range. -/
theorem mem_blk5 (t : Fin cfg5.N) (i : S100000x40.Idx) :
    i ∈ ((cfg5.win 5).blk t).view.set ↔ ∀ a : Fin 2, win5_5.index t a * S5000x40.size a ≤ (i a).val ∧ (i a).val < win5_5.index t a * S5000x40.size a + S5000x40.size a := by
  show i ∈ ((View.whole main_v31).slice (win5_5.rect t)).set ↔ _
  rw [View.set_slice_whole, Rect.mem_set_unit]
  exact Iff.rfl

/-- Row r lies in the block of point r / 5000: the 20 row blocks tile the result. -/
theorem cover5 (i : S100000x40.Idx) : ∃ t : Fin cfg5.N, (cfg5.win 5).flush t = true ∧ i ∈ ((cfg5.win 5).blk t).view.set := by
  have hi0 : (i 0).val < 100000 := (i 0).isLt
  have hi1 : (i 1).val < 40 := (i 1).isLt
  have hN : cfg5.N = 20 := N_5
  refine ⟨⟨(i 0).val / 5000, by rw [hN]; omega⟩, flush5_5 _, ?_⟩
  rw [mem_blk5]
  obtain ⟨-, -, -, -, -, -, -, -, -, e50, e51⟩ := idx_facts5 ⟨(i 0).val / 5000, by rw [hN]; omega⟩
  intro a
  match a with
  | ⟨0, _⟩ =>
    show win5_5.index _ (0 : Fin 2) * 5000 ≤ (i 0).val ∧ (i 0).val < win5_5.index _ (0 : Fin 2) * 5000 + 5000
    rw [e50]; show (i 0).val / 5000 * 5000 ≤ (i 0).val ∧ (i 0).val < (i 0).val / 5000 * 5000 + 5000; omega
  | ⟨1, _⟩ =>
    show win5_5.index _ (1 : Fin 2) * 40 ≤ (i 1).val ∧ (i 1).val < win5_5.index _ (1 : Fin 2) * 40 + 40
    rw [e51]; omega

/-- The result array after the launch: the combine step of the arrays the launch finds. -/
theorem out5_value (c : Dev nD) :
    (dat5 V c).arrAt 5 cfg5.N = comb (xarr5 V c) (larr5 V c) (aarr5 V c) (sarr5 V c) (barr5 V c) :=
  (dat5 V c).arrAt_eq_of_cover 5 _ (fun t _ => flushed5_eq V c t) cover5

end Cert.KernelIdeal.Layer

end
-- ==== Proof.Walk.lean ====
/-
  The kernel program's run, boundary by boundary: what each buffer a launch reads holds when the launch is entered. The
  arguments are never written, so each is still its launch contents; the two columns of row scales and the zero bias
  are what the first host stretch computes from the index vectors; each launch's result array is its layer step of
  the arrays it found (the six launches' value theorems); each aggregate is the edge aggregation of the projection
  before it. Chained, the result buffer ends at the three-layer network of the argument arrays.
-/
import proofs.«423416_j17660905521700_1_alg».proof.Proof.Gen.KernelIdeal.Frame
import proofs.«423416_j17660905521700_1_alg».proof.Proof.Spec
import proofs.«423416_j17660905521700_1_alg».proof.Proof.HostK
import proofs.«423416_j17660905521700_1_alg».proof.Proof.Proj0
import proofs.«423416_j17660905521700_1_alg».proof.Proof.Comb1
import proofs.«423416_j17660905521700_1_alg».proof.Proof.Proj2
import proofs.«423416_j17660905521700_1_alg».proof.Proof.Comb3
import proofs.«423416_j17660905521700_1_alg».proof.Proof.Proj4
import proofs.«423416_j17660905521700_1_alg».proof.Proof.Comb5
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Layer

open Cert.KernelIdeal Cert.KernelIdeal.Gen Cert.GraphConv

/-- No operation of a host stretch writes the buffer: each operation's one written buffer is another one. -/
macro "not_written" ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg)

/-! ## A buffer the host stretches between two launches leave alone -/

/-- Through the five stretches before the first launch. -/
theorem keep5 (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes)
    (h4 : ∀ op ∈ (hostOps0_4 : List (HloOp τ sig (Elt Ideal))), Proc.devRef .tc b ∉ op.writes) :
    W5 m ρ c (Proc.devRef .tc b) = m ((c : Thread nD τ).loc b) :=
  calc W5 m ρ c (Proc.devRef .tc b)
    _ = W4 m ρ c (Proc.devRef .tc b) := StableHlo.after_of_forall_not_mem _ _ h4
    _ = W3 m ρ c (Proc.devRef .tc b) := StableHlo.after_of_forall_not_mem _ _ h3
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- Through the two stretches between the first projection and the first combine. -/
theorem keep8 (c : Dev nD) (b : Ref sig .tc)
    (h0 : ∀ op ∈ (hostOps1 : List (HloOp τ sig (Elt Ideal))), Proc.devRef .tc b ∉ op.writes)
    (h1 : ∀ op ∈ (hostOps1_1 : List (HloOp τ sig (Elt Ideal))), Proc.devRef .tc b ∉ op.writes) :
    W8 m ρ c (Proc.devRef .tc b) = W6 m ρ c (Proc.devRef .tc b) :=
  (StableHlo.after_of_forall_not_mem _ _ h1).trans (StableHlo.after_of_forall_not_mem _ _ h0)

/-- Through the two stretches between the second projection and the second combine. -/
theorem keep12 (c : Dev nD) (b : Ref sig .tc)
    (h0 : ∀ op ∈ (hostOps3 : List (HloOp τ sig (Elt Ideal))), Proc.devRef .tc b ∉ op.writes)
    (h1 : ∀ op ∈ (hostOps3_1 : List (HloOp τ sig (Elt Ideal))), Proc.devRef .tc b ∉ op.writes) :
    W12 m ρ c (Proc.devRef .tc b) = W10 m ρ c (Proc.devRef .tc b) :=
  (StableHlo.after_of_forall_not_mem _ _ h1).trans (StableHlo.after_of_forall_not_mem _ _ h0)

/-- Through the two stretches between the third projection and the third combine. -/
theorem keep16 (c : Dev nD) (b : Ref sig .tc)
    (h0 : ∀ op ∈ (hostOps5 : List (HloOp τ sig (Elt Ideal))), Proc.devRef .tc b ∉ op.writes)
    (h1 : ∀ op ∈ (hostOps5_1 : List (HloOp τ sig (Elt Ideal))), Proc.devRef .tc b ∉ op.writes) :
    W16 m ρ c (Proc.devRef .tc b) = W14 m ρ c (Proc.devRef .tc b) :=
  (StableHlo.after_of_forall_not_mem _ _ h1).trans (StableHlo.after_of_forall_not_mem _ _ h0)

/-- A launch leaves each of its input arrays as it found it. -/
theorem in6 (c : Dev nD) (w : Fin cfg0.W) (hw : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hw _).trans (A_eq0 (V5 m ρ) c w))
theorem in9 (c : Dev nD) (w : Fin cfg1.W) (hw : (cfg1.win w).isOut = false) :
    W9 m ρ c (Proc.devRef .tc (Pipeline.arrRef spec1 w)) = W8 m ρ c (Proc.devRef .tc (Pipeline.arrRef spec1 w)) :=
  (W9_arr m ρ c w).trans (((dat1 (V8 m ρ) c).arrAt_in w hw _).trans (A_eq1 (V8 m ρ) c w))
theorem in10 (c : Dev nD) (w : Fin cfg2.W) (hw : (cfg2.win w).isOut = false) :
    W10 m ρ c (Proc.devRef .tc (Pipeline.arrRef spec2 w)) = W9 m ρ c (Proc.devRef .tc (Pipeline.arrRef spec2 w)) :=
  (W10_arr m ρ c w).trans (((dat2 (V9 m ρ) c).arrAt_in w hw _).trans (A_eq2 (V9 m ρ) c w))
theorem in13 (c : Dev nD) (w : Fin cfg3.W) (hw : (cfg3.win w).isOut = false) :
    W13 m ρ c (Proc.devRef .tc (Pipeline.arrRef spec3 w)) = W12 m ρ c (Proc.devRef .tc (Pipeline.arrRef spec3 w)) :=
  (W13_arr m ρ c w).trans (((dat3 (V12 m ρ) c).arrAt_in w hw _).trans (A_eq3 (V12 m ρ) c w))
theorem in14 (c : Dev nD) (w : Fin cfg4.W) (hw : (cfg4.win w).isOut = false) :
    W14 m ρ c (Proc.devRef .tc (Pipeline.arrRef spec4 w)) = W13 m ρ c (Proc.devRef .tc (Pipeline.arrRef spec4 w)) :=
  (W14_arr m ρ c w).trans (((dat4 (V13 m ρ) c).arrAt_in w hw _).trans (A_eq4 (V13 m ρ) c w))

/-! ## What each host stretch computes, from whatever contents it starts at -/

section Stretches
variable (Wv : Valuation τ sig (Elt Ideal))

/-- A typed reference's two transports, there and back, are the identity; and at a literal reference each is. -/
theorem ofBuf_toBuf {T : BufTy} (x : TRef sig T) (v : T.Contents (Elt Ideal)) : x.ofBuf (x.toBuf v) = v := by
  obtain ⟨r, h, hd, hs⟩ := x
  subst h
  rfl
theorem ofBuf_arg1 (h1 h2 h3) (v : Buf (Elt Ideal) (((0 : Dev nD) : Thread nD τ).loc main_arg1)) :
    (TRef.of (T := ⟨S1600000, .i32⟩) main_arg1 h1 h2 h3).ofBuf v = v := rfl
theorem ofBuf_v14 (h1 h2 h3) (v : Buf (Elt Ideal) (((0 : Dev nD) : Thread nD τ).loc main_v14)) :
    (TRef.of (T := ⟨S100000x128, .f32⟩) main_v14 h1 h2 h3).ofBuf v = v := rfl
theorem ofBuf_v20 (h1 h2 h3) (v : Buf (Elt Ideal) (((0 : Dev nD) : Thread nD τ).loc main_v20)) :
    (TRef.of (T := ⟨S100000x128, .f32⟩) main_v20 h1 h2 h3).ofBuf v = v := rfl
theorem ofBuf_v26 (h1 h2 h3) (v : Buf (Elt Ideal) (((0 : Dev nD) : Thread nD τ).loc main_v26)) :
    (TRef.of (T := ⟨S100000x40, .f32⟩) main_v26 h1 h2 h3).ofBuf v = v := rfl
theorem toBuf_v15 (h1 h2 h3) (v : FVec Ideal S1600000x128 .f32) :
    TRef.toBuf (Val := Elt Ideal) (TRef.of (T := ⟨S1600000x128, .f32⟩) main_v15 h1 h2 h3) v = v := rfl
theorem toBuf_v21 (h1 h2 h3) (v : FVec Ideal S1600000x128 .f32) :
    TRef.toBuf (Val := Elt Ideal) (TRef.of (T := ⟨S1600000x128, .f32⟩) main_v21 h1 h2 h3) v = v := rfl
theorem toBuf_v27 (h1 h2 h3) (v : FVec Ideal S1600000x40 .f32) :
    TRef.toBuf (Val := Elt Ideal) (TRef.of (T := ⟨S1600000x40, .f32⟩) main_v27 h1 h2 h3) v = v := rfl

theorem s0_v3 : StableHlo.after hostOps0 Wv (Proc.devRef .tc main_v3) = degK (Wv (Proc.devRef .tc main_arg1)) onesK := by
  simp only [hostOps0]; after_results; rfl
theorem s0_cst1 : StableHlo.after hostOps0 Wv (Proc.devRef .tc main_cst_1) = oneK := by
  simp only [hostOps0]; after_results; rfl
theorem s0_v0 : StableHlo.after hostOps0 Wv (Proc.devRef .tc main_v0) = onesK := by
  simp only [hostOps0]; after_results; rfl

set_option maxHeartbeats 400000 in
theorem s01_v4 : StableHlo.after hostOps0_1 Wv (Proc.devRef .tc main_v4)
    = clipOf (Wv (Proc.devRef .tc main_cst_1)) (Wv (Proc.devRef .tc main_v3)) := by
  simp only [hostOps0_1]; after_results; rfl

theorem s02_v7 : StableHlo.after hostOps0_2 Wv (Proc.devRef .tc main_v7)
    = degK (Wv (Proc.devRef .tc main_arg2)) (Wv (Proc.devRef .tc main_v0)) := by
  simp only [hostOps0_2]; after_results; rfl
theorem s02_cst3 : StableHlo.after hostOps0_2 Wv (Proc.devRef .tc main_cst_3) = oneK := by
  simp only [hostOps0_2]; after_results; rfl

set_option maxHeartbeats 400000 in
theorem s03_v8 : StableHlo.after hostOps0_3 Wv (Proc.devRef .tc main_v8)
    = clipOf (Wv (Proc.devRef .tc main_cst_3)) (Wv (Proc.devRef .tc main_v7)) := by
  simp only [hostOps0_3]; after_results; rfl

theorem s04_v10 : StableHlo.after hostOps0_4 Wv (Proc.devRef .tc main_v10) = scaleOf (Wv (Proc.devRef .tc main_v4)) := by
  simp only [hostOps0_4]; after_results; rfl
theorem s04_v12 : StableHlo.after hostOps0_4 Wv (Proc.devRef .tc main_v12) = scaleOf (Wv (Proc.devRef .tc main_v8)) := by
  simp only [hostOps0_4]; after_results; rfl
theorem s04_v13 : StableHlo.after hostOps0_4 Wv (Proc.devRef .tc main_v13) = zeroK := by
  simp only [hostOps0_4]; after_results; rfl

set_option maxHeartbeats 1600000 in
theorem s1_v15 : StableHlo.after hostOps1 Wv (Proc.devRef .tc main_v15)
    = takeK128 (Wv (Proc.devRef .tc main_arg1)) (Wv (Proc.devRef .tc main_v14)) := by
  simp only [hostOps1]; after_results
  simp only [ofBuf_toBuf, ofBuf_arg1, ofBuf_v14, toBuf_v15]
  rfl
theorem s11_v18 : StableHlo.after hostOps1_1 Wv (Proc.devRef .tc main_v18)
    = scatK128 (Wv (Proc.devRef .tc main_arg2)) (Wv (Proc.devRef .tc main_v15)) := by
  simp only [hostOps1_1]; after_results; rfl

set_option maxHeartbeats 1600000 in
theorem s3_v21 : StableHlo.after hostOps3 Wv (Proc.devRef .tc main_v21)
    = takeK128 (Wv (Proc.devRef .tc main_arg1)) (Wv (Proc.devRef .tc main_v20)) := by
  simp only [hostOps3]; after_results
  simp only [ofBuf_toBuf, ofBuf_arg1, ofBuf_v20, toBuf_v21]
  rfl
theorem s31_v24 : StableHlo.after hostOps3_1 Wv (Proc.devRef .tc main_v24)
    = scatK128 (Wv (Proc.devRef .tc main_arg2)) (Wv (Proc.devRef .tc main_v21)) := by
  simp only [hostOps3_1]; after_results; rfl

set_option maxHeartbeats 1600000 in
theorem s5_v27 : StableHlo.after hostOps5 Wv (Proc.devRef .tc main_v27)
    = takeK40 (Wv (Proc.devRef .tc main_arg1)) (Wv (Proc.devRef .tc main_v26)) := by
  simp only [hostOps5]; after_results
  simp only [ofBuf_toBuf, ofBuf_arg1, ofBuf_v26, toBuf_v27]
  rfl
theorem s51_v30 : StableHlo.after hostOps5_1 Wv (Proc.devRef .tc main_v30)
    = scatK40 (Wv (Proc.devRef .tc main_arg2)) (Wv (Proc.devRef .tc main_v27)) := by
  simp only [hostOps5_1]; after_results; rfl

end Stretches

/-! ## The argument arrays and the named intermediate values -/

abbrev A0 (c : Dev nD) : FVec Ideal S100000x128 .f32 := m ((c : Thread nD τ).loc main_arg0)
abbrev A1 (c : Dev nD) : IVec S1600000 32 := m ((c : Thread nD τ).loc main_arg1)
abbrev A2 (c : Dev nD) : IVec S1600000 32 := m ((c : Thread nD τ).loc main_arg2)
abbrev A3 (c : Dev nD) : FVec Ideal S128x128 .f32 := m ((c : Thread nD τ).loc main_arg3)
abbrev A4 (c : Dev nD) : FVec Ideal S128x128 .f32 := m ((c : Thread nD τ).loc main_arg4)
abbrev A5 (c : Dev nD) : FVec Ideal S128x40 .f32 := m ((c : Thread nD τ).loc main_arg5)
abbrev A6 (c : Dev nD) : FVec Ideal S40 .f32 := m ((c : Thread nD τ).loc main_arg6)
abbrev A7 (c : Dev nD) : FVec Ideal S128x128 .f32 := m ((c : Thread nD τ).loc main_arg7)
abbrev A8 (c : Dev nD) : FVec Ideal S128x128 .f32 := m ((c : Thread nD τ).loc main_arg8)
abbrev A9 (c : Dev nD) : FVec Ideal S128x40 .f32 := m ((c : Thread nD τ).loc main_arg9)

/-- The first layer's projection, the first layer, the second layer's projection, the second layer, the third layer's projection. -/
def P0 (c : Dev nD) : FVec Ideal S100000x128 .f32 := proj (A0 m c) (scaleK (A1 m c)) (A3 m c)
def H1 (c : Dev nD) : FVec Ideal S100000x128 .f32 := comb (A0 m c) (A7 m c) (aggK128 (A1 m c) (A2 m c) (P0 m c)) (scaleK (A2 m c)) zeroK
def P1 (c : Dev nD) : FVec Ideal S100000x128 .f32 := proj (H1 m c) (scaleK (A1 m c)) (A4 m c)
def H2 (c : Dev nD) : FVec Ideal S100000x128 .f32 := comb (H1 m c) (A8 m c) (aggK128 (A1 m c) (A2 m c) (P1 m c)) (scaleK (A2 m c)) zeroK
def P2 (c : Dev nD) : FVec Ideal S100000x40 .f32 := proj (H2 m c) (scaleK (A1 m c)) (A5 m c)

/-! ## Steps through stretches and launches that do not touch a buffer -/

macro "k5" : term => `(keep5 _ _ _ _ (by not_written hostOps0) (by not_written hostOps0_1) (by not_written hostOps0_2) (by not_written hostOps0_3) (by not_written hostOps0_4))
macro "k8" : term => `(keep8 _ _ _ _ (by not_written hostOps1) (by not_written hostOps1_1))
macro "k12" : term => `(keep12 _ _ _ _ (by not_written hostOps3) (by not_written hostOps3_1))
macro "k16" : term => `(keep16 _ _ _ _ (by not_written hostOps5) (by not_written hostOps5_1))
macro "n6" : term => `(W6_of_ne _ _ _ _ (by decide))
macro "n9" : term => `(W9_of_ne _ _ _ _ (by decide))
macro "n10" : term => `(W10_of_ne _ _ _ _ (by decide))
macro "n13" : term => `(W13_of_ne _ _ _ _ (by decide))
macro "n14" : term => `(W14_of_ne _ _ _ _ (by decide))

/-! ## At the first launch -/

theorem w5_arg0 (c : Dev nD) : W5 m ρ c (Proc.devRef .tc main_arg0) = A0 m c := k5
theorem w5_arg3 (c : Dev nD) : W5 m ρ c (Proc.devRef .tc main_arg3) = A3 m c := k5

/-- The column of source-side row scales: the first stretch counts the edges out of each node, the clamp and the
    reciprocal square root follow. -/
theorem w5_v10 (c : Dev nD) : W5 m ρ c (Proc.devRef .tc main_v10) = scaleK (A1 m c) := by
  have e4 : W5 m ρ c (Proc.devRef .tc main_v10) = scaleOf (W4 m ρ c (Proc.devRef .tc main_v4)) := s04_v10 (W4 m ρ c)
  have e3 : W4 m ρ c (Proc.devRef .tc main_v4) = W2 m ρ c (Proc.devRef .tc main_v4) :=
    (StableHlo.after_of_forall_not_mem _ _ (by not_written hostOps0_3)).trans
      (StableHlo.after_of_forall_not_mem _ _ (by not_written hostOps0_2))
  have e2 : W2 m ρ c (Proc.devRef .tc main_v4)
      = clipOf (W1 m ρ c (Proc.devRef .tc main_cst_1)) (W1 m ρ c (Proc.devRef .tc main_v3)) := s01_v4 (W1 m ρ c)
  have e1 : W1 m ρ c (Proc.devRef .tc main_cst_1) = oneK := s0_cst1 (W0 m ρ c)
  have e0 : W1 m ρ c (Proc.devRef .tc main_v3) = degK (W0 m ρ c (Proc.devRef .tc main_arg1)) onesK := s0_v3 (W0 m ρ c)
  rw [e4, e3, e2, e1, e0]; rfl

/-- The column of destination-side row scales. -/
theorem w5_v12 (c : Dev nD) : W5 m ρ c (Proc.devRef .tc main_v12) = scaleK (A2 m c) := by
  have e4 : W5 m ρ c (Proc.devRef .tc main_v12) = scaleOf (W4 m ρ c (Proc.devRef .tc main_v8)) := s04_v12 (W4 m ρ c)
  have e3 : W4 m ρ c (Proc.devRef .tc main_v8)
      = clipOf (W3 m ρ c (Proc.devRef .tc main_cst_3)) (W3 m ρ c (Proc.devRef .tc main_v7)) := s03_v8 (W3 m ρ c)
  have e2a : W3 m ρ c (Proc.devRef .tc main_cst_3) = oneK := s02_cst3 (W2 m ρ c)
  have e2b : W3 m ρ c (Proc.devRef .tc main_v7)
      = degK (W2 m ρ c (Proc.devRef .tc main_arg2)) (W2 m ρ c (Proc.devRef .tc main_v0)) := s02_v7 (W2 m ρ c)
  have e1a : W2 m ρ c (Proc.devRef .tc main_arg2) = W0 m ρ c (Proc.devRef .tc main_arg2) :=
    (StableHlo.after_of_forall_not_mem _ _ (by not_written hostOps0_1)).trans
      (StableHlo.after_of_forall_not_mem _ _ (by not_written hostOps0))
  have e1b : W2 m ρ c (Proc.devRef .tc main_v0) = onesK :=
    (StableHlo.after_of_forall_not_mem _ _ (by not_written hostOps0_1)).trans (s0_v0 (W0 m ρ c))
  rw [e4, e3, e2a, e2b, e1a, e1b]; rfl

/-- The zero bias. -/
theorem w5_v13 (c : Dev nD) : W5 m ρ c (Proc.devRef .tc main_v13) = zeroK := s04_v13 (W4 m ρ c)

/-- The first projection's result. -/
theorem w6_v14 (c : Dev nD) : W6 m ρ c (Proc.devRef .tc main_v14) = P0 m c := by
  refine (W6_arr m ρ c 3).trans ((out0_value (V5 m ρ) c).trans ?_)
  show proj (W5 m ρ c (Proc.devRef .tc main_arg0)) (W5 m ρ c (Proc.devRef .tc main_v10)) (W5 m ρ c (Proc.devRef .tc main_arg3)) = _
  rw [w5_arg0, w5_v10, w5_arg3]; rfl

theorem w6_arg1 (c : Dev nD) : W6 m ρ c (Proc.devRef .tc main_arg1) = A1 m c := Eq.trans n6 k5
theorem w6_arg2 (c : Dev nD) : W6 m ρ c (Proc.devRef .tc main_arg2) = A2 m c := Eq.trans n6 k5

/-! ## Between the first projection and the first combine -/

/-- The first aggregate: the take of the first projection, added into the destination rows. -/
theorem w8_v18 (c : Dev nD) : W8 m ρ c (Proc.devRef .tc main_v18) = aggK128 (A1 m c) (A2 m c) (P0 m c) := by
  have e1 : W8 m ρ c (Proc.devRef .tc main_v18)
      = scatK128 (W7 m ρ c (Proc.devRef .tc main_arg2)) (W7 m ρ c (Proc.devRef .tc main_v15)) := s11_v18 (W7 m ρ c)
  have e2 : W7 m ρ c (Proc.devRef .tc main_arg2) = W6 m ρ c (Proc.devRef .tc main_arg2) :=
    StableHlo.after_of_forall_not_mem _ _ (by not_written hostOps1)
  have e3 : W7 m ρ c (Proc.devRef .tc main_v15)
      = takeK128 (W6 m ρ c (Proc.devRef .tc main_arg1)) (W6 m ρ c (Proc.devRef .tc main_v14)) := s1_v15 (W6 m ρ c)
  rw [e1, e2, e3, w6_arg1, w6_arg2, w6_v14]; rfl

theorem w8_arg0 (c : Dev nD) : W8 m ρ c (Proc.devRef .tc main_arg0) = A0 m c :=
  Eq.trans k8 (Eq.trans (in6 m ρ c 0 rfl) (w5_arg0 m ρ c))
theorem w8_arg7 (c : Dev nD) : W8 m ρ c (Proc.devRef .tc main_arg7) = A7 m c := Eq.trans k8 (Eq.trans n6 k5)
theorem w8_v12 (c : Dev nD) : W8 m ρ c (Proc.devRef .tc main_v12) = scaleK (A2 m c) := Eq.trans k8 (Eq.trans n6 (w5_v12 m ρ c))
theorem w8_v13 (c : Dev nD) : W8 m ρ c (Proc.devRef .tc main_v13) = zeroK := Eq.trans k8 (Eq.trans n6 (w5_v13 m ρ c))

/-- The first layer's result. -/
theorem w9_v19 (c : Dev nD) : W9 m ρ c (Proc.devRef .tc main_v19) = H1 m c := by
  refine (W9_arr m ρ c 5).trans ((out1_value (V8 m ρ) c).trans ?_)
  show comb (W8 m ρ c (Proc.devRef .tc main_arg0)) (W8 m ρ c (Proc.devRef .tc main_arg7)) (W8 m ρ c (Proc.devRef .tc main_v18))
    (W8 m ρ c (Proc.devRef .tc main_v12)) (W8 m ρ c (Proc.devRef .tc main_v13)) = _
  rw [w8_arg0, w8_arg7, w8_v18, w8_v12, w8_v13]; rfl

/-! ## The second layer -/

theorem w9_v10 (c : Dev nD) : W9 m ρ c (Proc.devRef .tc main_v10) = scaleK (A1 m c) :=
  Eq.trans n9 (Eq.trans k8 (Eq.trans (in6 m ρ c 1 rfl) (w5_v10 m ρ c)))
theorem w9_arg4 (c : Dev nD) : W9 m ρ c (Proc.devRef .tc main_arg4) = A4 m c := Eq.trans n9 (Eq.trans k8 (Eq.trans n6 k5))

/-- The second projection's result. -/
theorem w10_v20 (c : Dev nD) : W10 m ρ c (Proc.devRef .tc main_v20) = P1 m c := by
  refine (W10_arr m ρ c 3).trans ((out2_value (V9 m ρ) c).trans ?_)
  show proj (W9 m ρ c (Proc.devRef .tc main_v19)) (W9 m ρ c (Proc.devRef .tc main_v10)) (W9 m ρ c (Proc.devRef .tc main_arg4)) = _
  rw [w9_v19, w9_v10, w9_arg4]; rfl

theorem w10_arg1 (c : Dev nD) : W10 m ρ c (Proc.devRef .tc main_arg1) = A1 m c :=
  Eq.trans n10 (Eq.trans n9 (Eq.trans k8 (w6_arg1 m ρ c)))
theorem w10_arg2 (c : Dev nD) : W10 m ρ c (Proc.devRef .tc main_arg2) = A2 m c :=
  Eq.trans n10 (Eq.trans n9 (Eq.trans k8 (w6_arg2 m ρ c)))

/-- The second aggregate. -/
theorem w12_v24 (c : Dev nD) : W12 m ρ c (Proc.devRef .tc main_v24) = aggK128 (A1 m c) (A2 m c) (P1 m c) := by
  have e1 : W12 m ρ c (Proc.devRef .tc main_v24)
      = scatK128 (W11 m ρ c (Proc.devRef .tc main_arg2)) (W11 m ρ c (Proc.devRef .tc main_v21)) := s31_v24 (W11 m ρ c)
  have e2 : W11 m ρ c (Proc.devRef .tc main_arg2) = W10 m ρ c (Proc.devRef .tc main_arg2) :=
    StableHlo.after_of_forall_not_mem _ _ (by not_written hostOps3)
  have e3 : W11 m ρ c (Proc.devRef .tc main_v21)
      = takeK128 (W10 m ρ c (Proc.devRef .tc main_arg1)) (W10 m ρ c (Proc.devRef .tc main_v20)) := s3_v21 (W10 m ρ c)
  rw [e1, e2, e3, w10_arg1, w10_arg2, w10_v20]; rfl

theorem w12_v19 (c : Dev nD) : W12 m ρ c (Proc.devRef .tc main_v19) = H1 m c :=
  Eq.trans k12 (Eq.trans (in10 m ρ c 0 rfl) (w9_v19 m ρ c))
theorem w12_arg8 (c : Dev nD) : W12 m ρ c (Proc.devRef .tc main_arg8) = A8 m c :=
  Eq.trans k12 (Eq.trans n10 (Eq.trans n9 (Eq.trans k8 (Eq.trans n6 k5))))
theorem w12_v12 (c : Dev nD) : W12 m ρ c (Proc.devRef .tc main_v12) = scaleK (A2 m c) :=
  Eq.trans k12 (Eq.trans n10 (Eq.trans (in9 m ρ c 3 rfl) (w8_v12 m ρ c)))
theorem w12_v13 (c : Dev nD) : W12 m ρ c (Proc.devRef .tc main_v13) = zeroK :=
  Eq.trans k12 (Eq.trans n10 (Eq.trans (in9 m ρ c 4 rfl) (w8_v13 m ρ c)))

/-- The second layer's result. -/
theorem w13_v25 (c : Dev nD) : W13 m ρ c (Proc.devRef .tc main_v25) = H2 m c := by
  refine (W13_arr m ρ c 5).trans ((out3_value (V12 m ρ) c).trans ?_)
  show comb (W12 m ρ c (Proc.devRef .tc main_v19)) (W12 m ρ c (Proc.devRef .tc main_arg8)) (W12 m ρ c (Proc.devRef .tc main_v24))
    (W12 m ρ c (Proc.devRef .tc main_v12)) (W12 m ρ c (Proc.devRef .tc main_v13)) = _
  rw [w12_v19, w12_arg8, w12_v24, w12_v12, w12_v13]; rfl

/-! ## The third layer -/

theorem w13_v10 (c : Dev nD) : W13 m ρ c (Proc.devRef .tc main_v10) = scaleK (A1 m c) :=
  Eq.trans n13 (Eq.trans k12 (Eq.trans (in10 m ρ c 1 rfl) (w9_v10 m ρ c)))
theorem w13_arg5 (c : Dev nD) : W13 m ρ c (Proc.devRef .tc main_arg5) = A5 m c :=
  Eq.trans n13 (Eq.trans k12 (Eq.trans n10 (Eq.trans n9 (Eq.trans k8 (Eq.trans n6 k5)))))

/-- The third projection's result. -/
theorem w14_v26 (c : Dev nD) : W14 m ρ c (Proc.devRef .tc main_v26) = P2 m c := by
  refine (W14_arr m ρ c 3).trans ((out4_value (V13 m ρ) c).trans ?_)
  show proj (W13 m ρ c (Proc.devRef .tc main_v25)) (W13 m ρ c (Proc.devRef .tc main_v10)) (W13 m ρ c (Proc.devRef .tc main_arg5)) = _
  rw [w13_v25, w13_v10, w13_arg5]; rfl

theorem w14_arg1 (c : Dev nD) : W14 m ρ c (Proc.devRef .tc main_arg1) = A1 m c :=
  Eq.trans n14 (Eq.trans n13 (Eq.trans k12 (w10_arg1 m ρ c)))
theorem w14_arg2 (c : Dev nD) : W14 m ρ c (Proc.devRef .tc main_arg2) = A2 m c :=
  Eq.trans n14 (Eq.trans n13 (Eq.trans k12 (w10_arg2 m ρ c)))

/-- The third aggregate, 40 wide. -/
theorem w16_v30 (c : Dev nD) : W16 m ρ c (Proc.devRef .tc main_v30) = aggK40 (A1 m c) (A2 m c) (P2 m c) := by
  have e1 : W16 m ρ c (Proc.devRef .tc main_v30)
      = scatK40 (W15 m ρ c (Proc.devRef .tc main_arg2)) (W15 m ρ c (Proc.devRef .tc main_v27)) := s51_v30 (W15 m ρ c)
  have e2 : W15 m ρ c (Proc.devRef .tc main_arg2) = W14 m ρ c (Proc.devRef .tc main_arg2) :=
    StableHlo.after_of_forall_not_mem _ _ (by not_written hostOps5)
  have e3 : W15 m ρ c (Proc.devRef .tc main_v27)
      = takeK40 (W14 m ρ c (Proc.devRef .tc main_arg1)) (W14 m ρ c (Proc.devRef .tc main_v26)) := s5_v27 (W14 m ρ c)
  rw [e1, e2, e3, w14_arg1, w14_arg2, w14_v26]; rfl

theorem w16_v25 (c : Dev nD) : W16 m ρ c (Proc.devRef .tc main_v25) = H2 m c :=
  Eq.trans k16 (Eq.trans (in14 m ρ c 0 rfl) (w13_v25 m ρ c))
theorem w16_arg9 (c : Dev nD) : W16 m ρ c (Proc.devRef .tc main_arg9) = A9 m c :=
  Eq.trans k16 (Eq.trans n14 (Eq.trans n13 (Eq.trans k12 (Eq.trans n10 (Eq.trans n9 (Eq.trans k8 (Eq.trans n6 k5)))))))
theorem w16_arg6 (c : Dev nD) : W16 m ρ c (Proc.devRef .tc main_arg6) = A6 m c :=
  Eq.trans k16 (Eq.trans n14 (Eq.trans n13 (Eq.trans k12 (Eq.trans n10 (Eq.trans n9 (Eq.trans k8 (Eq.trans n6 k5)))))))
theorem w16_v12 (c : Dev nD) : W16 m ρ c (Proc.devRef .tc main_v12) = scaleK (A2 m c) :=
  Eq.trans k16 (Eq.trans n14 (Eq.trans (in13 m ρ c 3 rfl) (w12_v12 m ρ c)))

/-- THE RESULT: the result buffer ends at the three-layer network of the argument arrays. -/
theorem w17_v31 (c : Dev nD) : W17 m ρ c (Proc.devRef .tc main_v31)
    = net (aggK128 (A1 m c) (A2 m c)) (aggK40 (A1 m c) (A2 m c)) (scaleK (A1 m c)) (scaleK (A2 m c)) zeroK
        (A0 m c) (A3 m c) (A4 m c) (A5 m c) (A6 m c) (A7 m c) (A8 m c) (A9 m c) := by
  refine (W17_arr m ρ c 5).trans ((out5_value (V16 m ρ) c).trans ?_)
  show comb (W16 m ρ c (Proc.devRef .tc main_v25)) (W16 m ρ c (Proc.devRef .tc main_arg9)) (W16 m ρ c (Proc.devRef .tc main_v30))
    (W16 m ρ c (Proc.devRef .tc main_v12)) (W16 m ρ c (Proc.devRef .tc main_arg6)) = _
  rw [w16_v25, w16_arg9, w16_v30, w16_v12, w16_arg6]; rfl

end Cert.KernelIdeal.Layer

end
-- ==== Proof.TakeFill.lean ====
/-
  Under the precondition every source index lies in [0, 100000): the wrap leaves it as it is, the range test passes on
  every edge, and the take never fills — it is the plain gather at the wrapped indices.
-/
import proofs.«423416_j17660905521700_1_alg».proof.Defs
import proofs.«423416_j17660905521700_1_alg».proof.Proof.Gen.Pre_finite_inputs
import proofs.«423416_j17660905521700_1_alg».proof.Proof.HostK
import Idealize.ShloMosaic.Lib.ReduceAll
import Idealize.ShloMosaic.Lib.ValueIdx

noncomputable section

open Idealize.ShloMosaic Idealize.ShloMosaic.TcCoe Idealize.SL.Sem

namespace Cert.KernelIdeal.Layer

open Cert.KernelIdeal Cert.KernelIdeal.Gen

/-- A source index vector is in range when every entry e has 0 ≤ src e < 100000, read signed. -/
def InRange (src : IVec S1600000 32) : Prop :=
  ∀ e : S1600000.Idx, IntOp.cmpi .sge (src e) 0#32 = 1#1 ∧ IntOp.cmpi .slt (src e) 100000#32 = 1#1

/-- The precondition's last conjunct, read at an entry: the source indices are in range. -/
theorem inRange_of_pre (m : (ℓ : Loc nD τ sig) → Buf (Elt Ideal) ℓ) (h : Cert.Pre_KernelIdeal m) (c : Dev nD) :
    InRange (m ((c.tc : Thread nD τ).loc main_arg1)) := by
  intro e
  have e0 := congrFun (h c) ValueIdx.ix0
  dsimp only [Cert.Pre_finite_inputs.fn, Cert.Pre_finite_inputs.fn_part1, Cert.Pre_finite_inputs.fn_part2] at e0
  have e1 := (IntOp.andi_eq_one.1 e0).2
  haveI : Subsingleton Cert.Pre_finite_inputs.S_.Idx := ⟨fun a b => funext fun d => d.elim0⟩
  have e2 := Host.reduce_andi_all _ _ _ _ _ e1 e
  exact IntOp.andi_eq_one.1 e2

/-- A left fold by and over one-bit words that are all 1, from 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A word in [0, 100000) signed: the wrap keeps it, and it passes the test 0 ≤ w ≤ 99999. -/
theorem word_in_range {w : BitVec 32} (h0 : IntOp.cmpi .sge w 0#32 = 1#1) (h1 : IntOp.cmpi .slt w 100000#32 = 1#1) :
    Scalar.select (IntOp.cmpi .slt w 0#32) (IntOp.addi w 100000#32) w = w
      ∧ IntOp.cmpi .sle w 99999#32 = 1#1 := by
  rw [IntOp.cmpi_sge] at h0
  rw [IntOp.cmpi_slt] at h1
  have z0 : (0#32 : BitVec 32).toInt = 0 := by decide
  have z1 : (100000#32 : BitVec 32).toInt = 100000 := by decide
  have z2 : (99999#32 : BitVec 32).toInt = 99999 := by decide
  rw [z0] at h0
  rw [z1] at h1
  refine ⟨?_, ?_⟩
  · have hn : ¬ IntOp.cmpi .slt w 0#32 = 1#1 := by rw [IntOp.cmpi_slt, z0]; omega
    rw [ValueIdx.eq_zero_of_ne_one hn, ValueIdx.select_zero]
  · rw [IntOp.cmpi_sle, z2]; omega

/-- With the source indices in range the wrap is the identity at every entry. -/
theorem wrap_apply (src : IVec S1600000 32) (hs : InRange src) (k : S1600000.Idx) :
    (select (cmpi .slt src (broadcastInDim S1600000 ![] bcast_S_S1600000 (constantI S_ 32 0#32)))
      (addi src (broadcastInDim S1600000 ![] bcast_S_S1600000 (constantI S_ 32 100000#32))) src) k = src k :=
  (word_in_range (hs k).1 (hs k).2).1

/-- With the source indices in range every wrapped index is a source index's own value, in [0, 99999]. -/
theorem widxK_in_range (src : IVec S1600000 32) (hs : InRange src) (i : S1600000x1.Idx) :
    IntOp.cmpi .sge (widxK src i) 0#32 = 1#1 ∧ IntOp.cmpi .sle (widxK src i) 99999#32 = 1#1 := by
  unfold widxK
  simp only [broadcastInDim]
  rw [wrap_apply src hs]
  exact ⟨(hs _).1, (word_in_range (hs _).1 (hs _).2).2⟩

/-- With the source indices in range the range test passes on every edge. -/
theorem okK_eq_ones (src : IVec S1600000 32) (hs : InRange src) : okK src = fun _ => 1#1 := by
  funext j
  unfold okK
  rw [Host.reduce_eq_foldl]
  exact foldl_andi_ones _ (fun i => IntOp.andi_eq_one.2 (widxK_in_range src hs i)) _

/-- A select whose condition is the all-ones test laid along the rows is its first operand. -/
theorem select_ok {t : Shape} {α : Type} (src : IVec S1600000 32) (hs : InRange src)
    (dims : Fin S1600000.rank → Fin t.rank) (hb : S1600000.BroadcastsInDim t dims) (a b : t.Idx → α) :
    select (broadcastInDim t dims hb (okK src)) a b = a := by
  rw [okK_eq_ones src hs]
  funext i
  rw [ValueIdx.select_apply]
  exact ValueIdx.select_one _ _

/-- With every source index in range the 128-wide take is the gather. -/
theorem takeK128_eq_gather (m : (ℓ : Loc nD τ sig) → Buf (Elt Ideal) ℓ) (h : Cert.Pre_KernelIdeal m) (c : Dev nD)
    (p : FVec Ideal S100000x128 .f32) :
    takeK128 (m ((c.tc : Thread nD τ).loc main_arg1)) p
      = Host.gather gather_S100000x128_S1600000x1_S1600000x128_1_0_n_n_0_1_1128 p (widxK (m ((c.tc : Thread nD τ).loc main_arg1))) := by
  unfold takeK128
  exact select_ok _ (inRange_of_pre m h c) _ _ _ _

/-- With every source index in range the 40-wide take is the gather. -/
theorem takeK40_eq_gather (m : (ℓ : Loc nD τ sig) → Buf (Elt Ideal) ℓ) (h : Cert.Pre_KernelIdeal m) (c : Dev nD)
    (p : FVec Ideal S100000x40 .f32) :
    takeK40 (m ((c.tc : Thread nD τ).loc main_arg1)) p
      = Host.gather gather_S100000x40_S1600000x1_S1600000x40_1_0_n_n_0_1_140 p (widxK (m ((c.tc : Thread nD τ).loc main_arg1))) := by
  unfold takeK40
  exact select_ok _ (inRange_of_pre m h c) _ _ _ _

end Cert.KernelIdeal.Layer

end
-- ==== Proof.RefValue.lean ====
/-
  The reference's result as the three-layer network over its own host pieces: the columns of row scales, the edge
  aggregation (take the projection's rows at the wrapped source indices, add them into the rows the destination
  indices name), and the layer steps  proj / comb  that its multiplies, products and sums spell.
-/
import proofs.«423416_j17660905521700_1_alg».proof.Proof.Gen.ReferenceIdeal.Run
import proofs.«423416_j17660905521700_1_alg».proof.Proof.Spec

noncomputable section

open Idealize.ShloMosaic Idealize.ShloMosaic.TcCoe Idealize.SL.Sem

namespace Cert.ReferenceIdeal.RefValue

open Cert.ReferenceIdeal Cert.ReferenceIdeal.Gen Cert.GraphConv

/-- A column of row scales from an index vector: rsqrt of max(1, the number of edges naming each node). -/
def scaleR (idx : IVec S1600000 32) : FVec Ideal S100000x1 .f32 :=
  broadcastInDim S100000x1 ![0] bcast_S100000_S100000x1_0
    (Host.rsqrt (maximumf (broadcastInDim S100000 ![] bcast_S_S100000 (id (constant (F := Ideal) S_ .f32 0x3F800000#32)))
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))))

/-- The source indices with the negative ones wrapped by 100000, as a column. -/
def widxR (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The edge aggregation, 128 wide. -/
def aggR128 (src dst : IVec S1600000 32) (p : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 p (widxR src))

/-- The edge aggregation, 40 wide. -/
def aggR40 (src dst : IVec S1600000 32) (p : FVec Ideal S100000x40 .f32) : FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (Host.gather gather_S100000x40_S1600000x1_S1600000x40_1_0_n_n_0_1_140 p (widxR src))

/-- The host's 128-wide projection, at this network's sizes. -/
theorem proj128_eq (X : FVec Ideal S100000x128 .f32) (S : FVec Ideal S100000x1 .f32) (W : FVec Ideal S128x128 .f32) :
    Host.dotGeneral dot_S100000x128_S128x128_S100000x128_1_0_0_1_n_n none
        (mulf X (broadcastInDim S100000x128 ![0, 1] bcast_S100000x1_S100000x128_0_1 S)) W
      = proj (M := 100000) (K := 128) (N := 128) X S W :=
  host_proj (M := 100000) (K := 128) (N := 128) X S W bcast_S100000x1_S100000x128_0_1

/-- The host's 40-wide projection. -/
theorem proj40_eq (X : FVec Ideal S100000x128 .f32) (S : FVec Ideal S100000x1 .f32) (W : FVec Ideal S128x40 .f32) :
    Host.dotGeneral dot_S100000x128_S128x40_S100000x40_1_0_0_1_n_n none
        (mulf X (broadcastInDim S100000x128 ![0, 1] bcast_S100000x1_S100000x128_0_1 S)) W
      = proj (M := 100000) (K := 128) (N := 40) X S W :=
  host_proj (M := 100000) (K := 128) (N := 40) X S W bcast_S100000x1_S100000x128_0_1

/-- The host's 128-wide combine, which adds no bias. -/
theorem comb128_eq (X : FVec Ideal S100000x128 .f32) (L : FVec Ideal S128x128 .f32) (A : FVec Ideal S100000x128 .f32)
    (S : FVec Ideal S100000x1 .f32) :
    addf (mulf A (broadcastInDim S100000x128 ![0, 1] bcast_S100000x1_S100000x128_0_1 S))
        (Host.dotGeneral dot_S100000x128_S128x128_S100000x128_1_0_0_1_n_n none X L)
      = comb (M := 100000) (K := 128) (N := 128) X L A S (fun _ => 0) :=
  host_comb_nobias (M := 100000) (K := 128) (N := 128) X L A S (fun _ => 0) (fun _ => rfl) bcast_S100000x1_S100000x128_0_1

/-- The host's 40-wide combine, with the bias. -/
theorem comb40_eq (X : FVec Ideal S100000x128 .f32) (L : FVec Ideal S128x40 .f32) (A : FVec Ideal S100000x40 .f32)
    (S : FVec Ideal S100000x1 .f32) (B : FVec Ideal S40 .f32) :
    addf (addf (mulf A (broadcastInDim S100000x40 ![0, 1] bcast_S100000x1_S100000x40_0_1 S))
          (broadcastInDim S100000x40 ![0, 1] bcast_S1x40_S100000x40_0_1 (broadcastInDim S1x40 ![1] bcast_S40_S1x40_1 B)))
        (Host.dotGeneral dot_S100000x128_S128x40_S100000x40_1_0_0_1_n_n none X L)
      = comb (M := 100000) (K := 128) (N := 40) X L A S B :=
  host_comb_bias (M := 100000) (K := 128) (N := 40) X L A S B bcast_S100000x1_S100000x40_0_1 bcast_S40_S1x40_1 bcast_S1x40_S100000x40_0_1

/-- The reference run's result term is the network of the argument arrays. -/
theorem res_eq (m : (ℓ : Loc nD τ sig) → Buf (Elt Ideal) ℓ) (c : Dev nD) :
    Cert.ReferenceIdeal.Value.res_main_v66 (F := Ideal) m c
      = net (aggR128 (m ((c.tc : Thread nD τ).loc main_arg1)) (m ((c.tc : Thread nD τ).loc main_arg2)))
          (aggR40 (m ((c.tc : Thread nD τ).loc main_arg1)) (m ((c.tc : Thread nD τ).loc main_arg2)))
          (scaleR (m ((c.tc : Thread nD τ).loc main_arg1))) (scaleR (m ((c.tc : Thread nD τ).loc main_arg2))) (fun _ => 0)
          (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v66
  rw [proj40_eq, proj128_eq, proj128_eq, comb40_eq, comb128_eq, comb128_eq]
  rfl

end Cert.ReferenceIdeal.RefValue

end
-- ==== Proof.lean ====
/-
  Three graph-convolution layers (128 → 128 → 128 → 40 features over 100000 nodes and 1600000 edges): the kernel runs
  each layer as a projection launch ((x · s) W on the matrix unit, operands narrowed to bf16), a host edge aggregation
  (take the projection's rows at the source indices, add them into the destination rows) and a combine launch
  (a · s' + x L + b); the reference computes the same layers with whole-array host operations. On the extended reals
  narrowing is the identity and a matrix product is the textbook sum, so launch by launch the kernel's arrays are the
  layer steps  proj / comb  of the arrays before them (row blocks of a layer step are layer steps of row blocks), and
  the reference's multiplies, products and sums spell the same steps — with the first two layers' zero bias a plain
  x + 0 and the last layer's bias joining in another order of one three-term sum. The one difference is the take: the
  kernel's fills a row when a source index is out of range where the reference's gather clamps; under the
  precondition (finite floats, every source index in [0, 100000)) no row is filled, and the two aggregations are one
  function. The frames are the generated ones; the reference's is its generated run.
-/
import proofs.«423416_j17660905521700_1_alg».proof.Defs
import proofs.«423416_j17660905521700_1_alg».proof.Proof.Gen.Kernel
import proofs.«423416_j17660905521700_1_alg».proof.Proof.Gen.Kernel.Frame
import proofs.«423416_j17660905521700_1_alg».proof.Proof.Gen.KernelIdeal
import proofs.«423416_j17660905521700_1_alg».proof.Proof.Gen.KernelIdeal.Frame
import proofs.«423416_j17660905521700_1_alg».proof.Proof.Gen.ReferenceIdeal
import proofs.«423416_j17660905521700_1_alg».proof.Proof.Gen.ReferenceIdeal.Run
import proofs.«423416_j17660905521700_1_alg».proof.Proof.Gen.Pre_finite_inputs
import proofs.«423416_j17660905521700_1_alg».proof.Proof.KernelRun
import proofs.«423416_j17660905521700_1_alg».proof.Proof.Walk
import proofs.«423416_j17660905521700_1_alg».proof.Proof.TakeFill
import proofs.«423416_j17660905521700_1_alg».proof.Proof.RefValue
import Idealize.ShloMosaic.Adequacy
import Idealize.ShloMosaic.Init

noncomputable section

open Idealize.ShloMosaic Idealize.ShloMosaic.TcCoe Idealize.SL.Sem

namespace Cert.Proof.Bridge

open Cert.GraphConv

/-- The two programs compute the row scales by the same operations. -/
theorem scale_eq (idx : IVec Cert.KernelIdeal.S1600000 32) :
    Cert.KernelIdeal.Layer.scaleK idx = Cert.ReferenceIdeal.RefValue.scaleR idx := rfl

/-- The kernel's zero bias is zero. -/
theorem zero_eq : Cert.KernelIdeal.Layer.zeroK = fun _ => (0 : EReal) :=
  funext fun _ => Ideal.ofBits_zero_f32

/-- Under the precondition the kernel's 128-wide edge aggregation is the reference's. -/
theorem agg128_eq (m : (ℓ : Loc Cert.KernelIdeal.nD Cert.KernelIdeal.τ Cert.KernelIdeal.sig) → Buf (Elt Ideal) ℓ)
    (h : Cert.Pre_KernelIdeal m) (c : Dev Cert.KernelIdeal.nD) :
    Cert.KernelIdeal.Layer.aggK128 (Cert.KernelIdeal.Layer.A1 m c) (Cert.KernelIdeal.Layer.A2 m c)
      = Cert.ReferenceIdeal.RefValue.aggR128 (Cert.KernelIdeal.Layer.A1 m c) (Cert.KernelIdeal.Layer.A2 m c) := by
  funext p
  unfold Cert.KernelIdeal.Layer.aggK128
  rw [Cert.KernelIdeal.Layer.takeK128_eq_gather m h c p]
  rfl

/-- … and the 40-wide one. -/
theorem agg40_eq (m : (ℓ : Loc Cert.KernelIdeal.nD Cert.KernelIdeal.τ Cert.KernelIdeal.sig) → Buf (Elt Ideal) ℓ)
    (h : Cert.Pre_KernelIdeal m) (c : Dev Cert.KernelIdeal.nD) :
    Cert.KernelIdeal.Layer.aggK40 (Cert.KernelIdeal.Layer.A1 m c) (Cert.KernelIdeal.Layer.A2 m c)
      = Cert.ReferenceIdeal.RefValue.aggR40 (Cert.KernelIdeal.Layer.A1 m c) (Cert.KernelIdeal.Layer.A2 m c) := by
  funext p
  unfold Cert.KernelIdeal.Layer.aggK40
  rw [Cert.KernelIdeal.Layer.takeK40_eq_gather m h c p]
  rfl

end Cert.Proof.Bridge

namespace Cert.Proof

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at the network of the (agreeing) argument arrays. -/
theorem algebraic : Cert.algebraic_KernelIdeal_ReferenceIdeal := by
  intro m ρ m' ρ' hpre hagree
  refine ⟨fun c => Cert.KernelIdeal.Gen.W17 m ρ c (Proc.devRef .tc Cert.KernelIdeal.main_v31),
    Cert.KernelIdeal.Layer.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.RefValue.res_eq, e0, e1, e2, e3, e4, e5, e6, e7, e8, e9]
  refine Eq.trans ?_ (Cert.KernelIdeal.Layer.w17_v31 m ρ c).symm
  rw [Bridge.agg128_eq m hpre c, Bridge.agg40_eq m hpre c, Bridge.scale_eq, Bridge.scale_eq, Bridge.zero_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
